-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x1 : Shape := ⟨3, ![4, 8192, 1]⟩
abbrev S1x1024x3 : Shape := ⟨3, ![1, 1024, 3]⟩
abbrev S1x8192x1 : Shape := ⟨3, ![1, 8192, 1]⟩
abbrev S8192x1 : Shape := ⟨2, ![8192, 1]⟩
abbrev S1024x3 : Shape := ⟨2, ![1024, 3]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩
abbrev S1x1024x1 : Shape := ⟨3, ![1, 1024, 1]⟩
abbrev S4x8192 : Shape := ⟨2, ![4, 8192]⟩
abbrev S_ : Shape := ⟨0, ![]⟩
abbrev S4 : Shape := ⟨1, ![4]⟩

abbrev nBuf : Space → Nat
  | .hbm => 71
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x8192x1, .f32⟩
  | .hbm, ⟨4, _⟩ => ⟨S4x8192, .f32⟩
  | .hbm, ⟨5, _⟩ => ⟨S4x8192, .f32⟩
  | .hbm, ⟨6, _⟩ => ⟨S4x8192, .f32⟩
  | .hbm, ⟨7, _⟩ => ⟨S_, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4x8192, .f32⟩
  | .hbm, ⟨13, _⟩ => ⟨S_, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4x8192, .f32⟩
  | .hbm, ⟨35, _⟩ => ⟨S4x8192, .i1⟩
  | .hbm, ⟨36, _⟩ => ⟨S4x8192, .f32⟩
  | .hbm, ⟨37, _⟩ => ⟨S_, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4x8192, .f32⟩
  | .hbm, ⟨44, _⟩ => ⟨S4x8192, .i1⟩
  | .hbm, ⟨45, _⟩ => ⟨S4x8192, .f32⟩
  | .hbm, ⟨46, _⟩ => ⟨S_, .f32⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S_, .f32⟩
  | .hbm, ⟨53, _⟩ => ⟨S4, .f32⟩
  | .hbm, ⟨54, _⟩ => ⟨S4, .i1⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .i1⟩
  | .hbm, ⟨62, _⟩ => ⟨S_, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S_, .f32⟩
  | .hbm, ⟨68, _⟩ => ⟨S_, .f32⟩
  | .hbm, ⟨69, _⟩ => ⟨S4, .f32⟩
  | .hbm, ⟨70, _⟩ => ⟨S4, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x8192x1, .f32⟩
  | .local _ .vmem, ⟨5, _⟩ => ⟨S1x8192x1, .f32⟩
  | .local _ .vmem, ⟨6, _⟩ => ⟨S1x8192x1, .f32⟩
  | .local _ .vmem, ⟨7, _⟩ => ⟨S1x8192x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_cst_7 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_cst_10 : Ref sig .tc := ⟨.hbm, 39, rfl⟩
abbrev main_v25 : Ref sig .tc := ⟨.hbm, 40, rfl⟩
abbrev main_v26 : Ref sig .tc := ⟨.hbm, 41, rfl⟩
abbrev main_cst_11 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_12 : Ref sig .tc := ⟨.hbm, 46, rfl⟩
abbrev main_v30 : Ref sig .tc := ⟨.hbm, 47, rfl⟩
abbrev main_cst_13 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_14 : Ref sig .tc := ⟨.hbm, 52, rfl⟩
abbrev main_v34 : Ref sig .tc := ⟨.hbm, 53, rfl⟩
abbrev main_v35 : Ref sig .tc := ⟨.hbm, 54, rfl⟩
abbrev main_cst_15 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_16 : Ref sig .tc := ⟨.hbm, 59, rfl⟩
abbrev main_v39 : Ref sig .tc := ⟨.hbm, 60, rfl⟩
abbrev main_v40 : Ref sig .tc := ⟨.hbm, 61, rfl⟩
abbrev main_cst_17 : Ref sig .tc := ⟨.hbm, 62, rfl⟩
abbrev main_call0_v0 : Ref sig .tc := ⟨.hbm, 63, rfl⟩
abbrev main_call0_v1 : Ref sig .tc := ⟨.hbm, 64, rfl⟩
abbrev main_v41 : Ref sig .tc := ⟨.hbm, 65, rfl⟩
abbrev main_v42 : Ref sig .tc := ⟨.hbm, 66, rfl⟩
abbrev main_cst_18 : Ref sig .tc := ⟨.hbm, 67, rfl⟩
abbrev main_call1_v0 : Ref sig .tc := ⟨.hbm, 68, rfl⟩
abbrev main_call1_v1 : Ref sig .tc := ⟨.hbm, 69, rfl⟩
abbrev main_v43 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg1 : BitVec 32 := BitVec.ofNat 32 (i 1).val
  let c1024_i32 : BitVec 32 := 1024#32
  let v28 : BitVec 32 := Scalar.muli arg1 c1024_i32
  v28
def k0_mult2 (i : grid0.Coords) : BitVec 32 :=
  let arg2 : BitVec 32 := BitVec.ofNat 32 (i 2).val
  let c1024_i32_13 : BitVec 32 := 1024#32
  let v30 : BitVec 32 := Scalar.muli arg2 c1024_i32_13
  v30
def k0_off1 (i : grid0.Coords) : Fin 3 → Nat :=
  let c0_14 : Index := 0#32
  let arg1 : BitVec 32 := BitVec.ofNat 32 (i 1).val
  let c1024_i32 : BitVec 32 := 1024#32
  let v28 : BitVec 32 := Scalar.muli arg1 c1024_i32
  let v29 : BitVec 32 := v28
  let v32 : Index := Scalar.indexCast v29
  let c0_15 : Index := 0#32
  ![0, v32.toNat, 0]
def k0_off2 (i : grid0.Coords) : Fin 3 → Nat :=
  let c0_18 : Index := 0#32
  let arg2 : BitVec 32 := BitVec.ofNat 32 (i 2).val
  let c1024_i32_13 : BitVec 32 := 1024#32
  let v30 : BitVec 32 := Scalar.muli arg2 c1024_i32_13
  let v31 : BitVec 32 := v30
  let v40 : Index := Scalar.indexCast v31
  let c0_19 : Index := 0#32
  ![0, v40.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x8192x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x8192x1_S1x8192x1_0_0_0 : ∀ a, (![0, 0, 0] : Fin 3 → Nat) a + S1x8192x1.size a ≤ S1x8192x1.size a
  h_S1x8192x1 : 0 < S1x8192x1.numel
  shapeCasts_S1x8192x1_S8192x1 : S1x8192x1.ShapeCasts S8192x1
  shapeCasts_S8192x1_S1x8192x1 : S8192x1.ShapeCasts S1x8192x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  h_S1x1024x1 : 0 < S1x1024x1.numel
  shapeCasts_S1x1024x1_S1024x1 : S1x1024x1.ShapeCasts S1024x1
  shapeCasts_S1024x1_S1x1024x1 : S1024x1.ShapeCasts S1x1024x1
  shapeCasts_S4x8192x1_S4x8192 : S4x8192x1.ShapeCasts S4x8192
  reducesTo_S4x8192_S4_d1 : S4x8192.ReducesTo [1] S4
  h_S_ : 0 < S_.numel
  bcast_S_S4 : S_.BroadcastsInDim S4 (![] : Fin 0 → Fin S4.rank)
  bcast_S_S4x8192 : S_.BroadcastsInDim S4x8192 (![] : Fin 0 → Fin S4x8192.rank)
  dot_S1024x3_S1024x3_S1024x1024_1_1_0_0_n_n_wf : DotDims.WF S1024x3 S1024x3 S1024x1024 [1] [1] [0] [0] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1x1024x1.size a ≤ S1x8192x1.size a
  k0_off2_inb : ∀ i : grid0.Coords, ∀ a, (k0_off2 i) a + S1x1024x1.size a ≤ S1x8192x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x1.size a ≤ S4x8192x1.size a
  hwx0_2 : ∀ i : grid0.Coords, EltTy.bits .f32 = 32 ∨ (Rect.block (s := S4x8192x1) S1x8192x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x1.size a ≤ S4x8192x1.size a
  hwx0_3 : ∀ i : grid0.Coords, EltTy.bits .f32 = 32 ∨ (Rect.block (s := S4x8192x1) S1x8192x1.size (cc0_transform_3 i) (hinb0_3 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8192x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8192x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 90
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4x8192, .f32⟩
  | .hbm, ⟨32, _⟩ => ⟨S_, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S_, .f32⟩
  | .hbm, ⟨53, _⟩ => ⟨S4x8192, .f32⟩
  | .hbm, ⟨54, _⟩ => ⟨S4x8192, .i1⟩
  | .hbm, ⟨55, _⟩ => ⟨S4x8192, .f32⟩
  | .hbm, ⟨56, _⟩ => ⟨S_, .f32⟩
  | .hbm, ⟨57, _⟩ => ⟨S4, .f32⟩
  | .hbm, ⟨58, _⟩ => ⟨S_, .f32⟩
  | .hbm, ⟨59, _⟩ => ⟨S4, .f32⟩
  | .hbm, ⟨60, _⟩ => ⟨S4, .f32⟩
  | .hbm, ⟨61, _⟩ => ⟨S_, .f32⟩
  | .hbm, ⟨62, _⟩ => ⟨S4x8192, .f32⟩
  | .hbm, ⟨63, _⟩ => ⟨S4x8192, .i1⟩
  | .hbm, ⟨64, _⟩ => ⟨S4x8192, .f32⟩
  | .hbm, ⟨65, _⟩ => ⟨S_, .f32⟩
  | .hbm, ⟨66, _⟩ => ⟨S4, .f32⟩
  | .hbm, ⟨67, _⟩ => ⟨S_, .f32⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S_, .f32⟩
  | .hbm, ⟨72, _⟩ => ⟨S4, .f32⟩
  | .hbm, ⟨73, _⟩ => ⟨S4, .i1⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S_, .f32⟩
  | .hbm, ⟨79, _⟩ => ⟨S4, .f32⟩
  | .hbm, ⟨80, _⟩ => ⟨S4, .i1⟩
  | .hbm, ⟨81, _⟩ => ⟨S_, .f32⟩
  | .hbm, ⟨82, _⟩ => ⟨S_, .f32⟩
  | .hbm, ⟨83, _⟩ => ⟨S4, .f32⟩
  | .hbm, ⟨84, _⟩ => ⟨S4, .f32⟩
  | .hbm, ⟨85, _⟩ => ⟨S4, .f32⟩
  | .hbm, ⟨86, _⟩ => ⟨S_, .f32⟩
  | .hbm, ⟨87, _⟩ => ⟨S_, .f32⟩
  | .hbm, ⟨88, _⟩ => ⟨S4, .f32⟩
  | .hbm, ⟨89, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_cst_11 : Ref sig .tc := ⟨.hbm, 43, rfl⟩
abbrev main_v29 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_cst_13 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_14 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_15 : Ref sig .tc := ⟨.hbm, 56, rfl⟩
abbrev main_v38 : Ref sig .tc := ⟨.hbm, 57, rfl⟩
abbrev main_cst_16 : Ref sig .tc := ⟨.hbm, 58, rfl⟩
abbrev main_v39 : Ref sig .tc := ⟨.hbm, 59, rfl⟩
abbrev main_v40 : Ref sig .tc := ⟨.hbm, 60, rfl⟩
abbrev main_cst_17 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_18 : Ref sig .tc := ⟨.hbm, 65, rfl⟩
abbrev main_v44 : Ref sig .tc := ⟨.hbm, 66, rfl⟩
abbrev main_cst_19 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_20 : Ref sig .tc := ⟨.hbm, 71, rfl⟩
abbrev main_v48 : Ref sig .tc := ⟨.hbm, 72, rfl⟩
abbrev main_v49 : Ref sig .tc := ⟨.hbm, 73, rfl⟩
abbrev main_cst_21 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_22 : Ref sig .tc := ⟨.hbm, 78, rfl⟩
abbrev main_v53 : Ref sig .tc := ⟨.hbm, 79, rfl⟩
abbrev main_v54 : Ref sig .tc := ⟨.hbm, 80, rfl⟩
abbrev main_cst_23 : Ref sig .tc := ⟨.hbm, 81, rfl⟩
abbrev main_call0_v0 : Ref sig .tc := ⟨.hbm, 82, rfl⟩
abbrev main_call0_v1 : Ref sig .tc := ⟨.hbm, 83, rfl⟩
abbrev main_v55 : Ref sig .tc := ⟨.hbm, 84, rfl⟩
abbrev main_v56 : Ref sig .tc := ⟨.hbm, 85, rfl⟩
abbrev main_cst_24 : Ref sig .tc := ⟨.hbm, 86, rfl⟩
abbrev main_call1_v0 : Ref sig .tc := ⟨.hbm, 87, rfl⟩
abbrev main_call1_v1 : Ref sig .tc := ⟨.hbm, 88, rfl⟩
abbrev main_v57 : Ref sig .tc := ⟨.hbm, 89, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  bcast_S_S4x8192 : S_.BroadcastsInDim S4x8192 (![] : Fin 0 → Fin S4x8192.rank)
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.FrameK.Tail.lean ====
/-
  The program is one kernel region followed by sixty-seven host operations in four stretches (the main
  line, the first select's three operations, two more of the main line, the second select's three).
  This module states what the region finds in the device buffers when it is entered (nothing runs
  before it, so the launch contents), that the program is the region continued by those stretches,
  and the three facts the frame needs of every later operation: it touches only unscoped device
  buffers, it allocates nothing, and it writes none of the four arrays the region's windows stage
  (the two arguments and the two distance arrays) — each later operation writes one buffer of its
  own, different from those four.
-/
import proofs.«149767_j65481071394839_1_alg».proof.Proof.Gen.Kernel.Launch
import proofs.«149767_j65481071394839_1_alg».proof.Proof.Gen.Kernel.Skeleton
import proofs.«149767_j65481071394839_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the region, stretch by stretch. -/
abbrev tailOps : List (List (HloOp τ sig (Elt F))) := [hostOps1, hostOps1_1, hostOps1_2, hostOps1_3]

/-- Core `c`'s device buffers as the region finds them: the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- The program is the region continued by the four stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- Every later operation touches unscoped device buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- None allocates a buffer. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- An operation whose one written buffer is none of the windows' four arrays. -/
abbrev KeepsArrays (op : HloOp τ sig (Elt F)) : Prop :=
  ∀ w, Proc.devRef .tc (Pipeline.arrRef spec0 w) ∉ op.writes

theorem hostOps1_keeps : (hostOps1 : List (HloOp τ sig (Elt F))).Forall KeepsArrays := by
  simp only [List.Forall]
  repeat' apply And.intro
  all_goals intro w; fin_cases w <;> exact fun h => StableHlo.devRef_ne_of_ne (by decide) (Finset.mem_singleton.mp h)
theorem hostOps1_1_keeps : (hostOps1_1 : List (HloOp τ sig (Elt F))).Forall KeepsArrays := by
  simp only [List.Forall]
  repeat' apply And.intro
  all_goals intro w; fin_cases w <;> exact fun h => StableHlo.devRef_ne_of_ne (by decide) (Finset.mem_singleton.mp h)
theorem hostOps1_2_keeps : (hostOps1_2 : List (HloOp τ sig (Elt F))).Forall KeepsArrays := by
  simp only [List.Forall]
  repeat' apply And.intro
  all_goals intro w; fin_cases w <;> exact fun h => StableHlo.devRef_ne_of_ne (by decide) (Finset.mem_singleton.mp h)
theorem hostOps1_3_keeps : (hostOps1_3 : List (HloOp τ sig (Elt F))).Forall KeepsArrays := by
  simp only [List.Forall]
  repeat' apply And.intro
  all_goals intro w; fin_cases w <;> exact fun h => StableHlo.devRef_ne_of_ne (by decide) (Finset.mem_singleton.mp h)

/-- None writes an array of the region's windows. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop

end Cert.Kernel.Fr

end
-- ==== Proof.FrameK.Runs.lean ====
/-
  What the body's runs are stated over. The body branches once, on "first row tile and first column
  tile", which over the 4 × 8 × 8 grid walked row-major is "the step number is a multiple of 64": the
  first step of each batch, where both result buffers are filled with +∞. The two input windows hold
  their blocks of the argument arrays at every step, fetched there or kept from the step before.
-/
import proofs.«149767_j65481071394839_1_alg».proof.Proof.FrameK.Tail

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first cloud's window holds its block at every step, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second cloud's window likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- "First row tile and first column tile", as the body computes it from the grid coordinates. -/
abbrev cond0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- It holds exactly at the first step of each batch. -/
theorem hcond0 : ∀ t : Fin cfg0.N, cond0 (grid0.coords t) ↔ t.val % 64 = 0 :=
  (by decide +kernel : ∀ t : Fin grid0.N, cond0 (grid0.coords t) ↔ t.val % 64 = 0)

/-- The row-tile and column-tile coordinates of step `t`. -/
theorem coord1 : ∀ t : Fin cfg0.N, ((grid0.coords t) 1).val = t.val / 8 % 8 :=
  (by decide +kernel : ∀ t : Fin grid0.N, ((grid0.coords t) 1).val = t.val / 8 % 8)
theorem coord2 : ∀ t : Fin cfg0.N, ((grid0.coords t) 2).val = t.val % 8 :=
  (by decide +kernel : ∀ t : Fin grid0.N, ((grid0.coords t) 2).val = t.val % 8)
theorem coord0 : ∀ t : Fin cfg0.N, ((grid0.coords t) 0).val = t.val / 64 :=
  (by decide +kernel : ∀ t : Fin grid0.N, ((grid0.coords t) 0).val = t.val / 64)

/-! ## The staging memrefs at a step -/

abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192x1 .f32 := win0_3.stage (cfg0.slots t 3)
abbrev hs0_3 (t : Fin cfg0.N) : (ms0_3 t).IsWhole := hstage0_3 ((cfg0.slots t 3).cast nbuf0_3)

/-- The region's invariant: nothing scoped besides the staging buffers, so only the generator register. -/
theorem PhiA0_eq (c : Dev nD) :
    (Pipeline.ΦA spec0 c : sProp 𝕄) = iprop((BI.emp : sProp 𝕄) ∗ (∃ r, prngReg c r)) := by
  unfold Pipeline.ΦA; rw [scopedRest0_eq]

end Cert.Kernel.Fr

end
-- ==== Proof.FrameK.RunA.lean ====
/-
  The body at the first step of a batch. It first fills both result buffers with +∞, then does what
  every step does: loads its two blocks of points, computes the tile and its two minima, and takes the
  running minimum into one slice of each buffer (the first slice of each, both tile coordinates being
  zero). Each buffer ends as the fill with that slice written over, whatever it held before.
-/
import proofs.«149767_j65481071394839_1_alg».proof.Proof.FrameK.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S1x8192x1 .f32) (harg5 : arg5.IsWhole) (arg6 : Memref sig .tc .vmem S1x8192x1 .f32) (harg6 : arg6.IsWhole)
    (hc0 : cond0 i)
    (x0 x1 : Vec F S1x1024x3 .f32) :
    Σ' (L2 : List (View.Piece (Elt F) S1x8192x1 .f32)), { L3 : List (View.Piece (Elt F) S1x8192x1 .f32) //
      ∀ (xo2 xo3 : Vec F S1x8192x1 .f32) (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__min_dist_kernel i arg3 harg3 arg4 harg4 arg5 harg5 arg6 harg6) K } := by
  refine ⟨?_, ?_, fun xo2 xo3 E K => ?run⟩
  case run =>
    simp only [cc0__min_dist_kernel_eq_skeleton]; unfold cc0__min_dist_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.Kernel.Fr

end
-- ==== Proof.FrameK.RunB.lean ====
/-
  The body at a step that is not the first of its batch. It loads its two blocks of points, computes
  the tile and its two minima, and takes the running minimum into ONE slice of each result buffer:
  rows 1024·(row tile) … of the first, rows 1024·(column tile) … of the second. Each buffer ends as it
  was found with that one slice written over.
-/
import proofs.«149767_j65481071394839_1_alg».proof.Proof.FrameK.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S1x8192x1 .f32) (harg5 : arg5.IsWhole) (arg6 : Memref sig .tc .vmem S1x8192x1 .f32) (harg6 : arg6.IsWhole)
    (hc0 : ¬cond0 i)
    (x0 x1 : Vec F S1x1024x3 .f32) (xo2 xo3 : Vec F S1x8192x1 .f32) :
    Σ' (L2 : List (View.Piece (Elt F) S1x8192x1 .f32)), { L3 : List (View.Piece (Elt F) S1x8192x1 .f32) //
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__min_dist_kernel i arg3 harg3 arg4 harg4 arg5 harg5 arg6 harg6) K } := by
  refine ⟨?_, ?_, fun E K => ?run⟩
  case run =>
    simp only [cc0__min_dist_kernel_eq_skeleton]; unfold cc0__min_dist_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

end Cert.Kernel.Fr

end
-- ==== Proof.FrameK.Frame.lean ====
/-
  The frame of the tiled sweep. Each result buffer stays in place for the 64 steps of a batch and is
  written back after the last of them, so what it holds after a step is stated by recursion on the
  step: at the first step of a batch the fill with +∞ under the first slice's update, whatever the
  buffer held; at a later step what the step before left with one more slice updated. With those
  contents as the proof data, the body's two runs discharge the obligation at every step, the
  library's frame run around a region followed by host operations applies, and the two argument
  arrays — inputs of the region, written by no later operation — end as they began.
-/
import proofs.«149767_j65481071394839_1_alg».proof.Proof.FrameK.RunA
import proofs.«149767_j65481071394839_1_alg».proof.Proof.FrameK.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a step leaves in the two result buffers -/

/-- One staging buffer of each result window, through which fill-covered contents are stated. -/
abbrev VO0_2 : View sig .tc .vmem S1x8192x1 .f32 := (Memref.whole cc0_stg2_0 : Memref sig .tc .vmem S1x8192x1 .f32).view
abbrev VO0_3 : View sig .tc .vmem S1x8192x1 .f32 := (Memref.whole cc0_stg3_0 : Memref sig .tc .vmem S1x8192x1 .f32).view

/-- At a batch's first step the fill alone covers the first result buffer. -/
theorem cover0_A_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : cond0 i) (x0 x1 : Vec F S1x1024x3 .f32) (y : S1x8192x1.Idx) :
    ∃ pc ∈ (kernelRun0_A (F := F) c i arg3 harg3 arg4 harg4 arg5 harg5 arg6 harg6 hc0 x0 x1).1, y ∈ pc.1.set := by
  refine ⟨⟨Rect.unit (s := S1x8192x1) ![0, 0, 0] S1x8192x1.size inb_S1x8192x1_S1x8192x1_0_0_0, k0_pay3⟩,
    List.mem_cons_of_mem _ (List.mem_singleton.mpr rfl), ?_⟩
  show y ∈ (Rect.unit (s := S1x8192x1) ![0, 0, 0] S1x8192x1.size inb_S1x8192x1_S1x8192x1_0_0_0).set
  rw [Rect.mem_set_unit]
  intro a
  have := (y a).isLt
  fin_cases a <;> exact ⟨Nat.zero_le _, by simpa using this⟩

/-- And the second. -/
theorem cover0_A_3 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : cond0 i) (x0 x1 : Vec F S1x1024x3 .f32) (y : S1x8192x1.Idx) :
    ∃ pc ∈ (kernelRun0_A (F := F) c i arg3 harg3 arg4 harg4 arg5 harg5 arg6 harg6 hc0 x0 x1).2.1, y ∈ pc.1.set := by
  refine ⟨⟨Rect.unit (s := S1x8192x1) ![0, 0, 0] S1x8192x1.size inb_S1x8192x1_S1x8192x1_0_0_0, k0_pay4⟩,
    List.mem_cons_of_mem _ (List.mem_singleton.mpr rfl), ?_⟩
  show y ∈ (Rect.unit (s := S1x8192x1) ![0, 0, 0] S1x8192x1.size inb_S1x8192x1_S1x8192x1_0_0_0).set
  rw [Rect.mem_set_unit]
  intro a
  have := (y a).isLt
  fin_cases a <;> exact ⟨Nat.zero_le _, by simpa using this⟩

/-- What a batch's first step leaves in the first result buffer. -/
def out0_A_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : cond0 i) (x0 x1 : Vec F S1x1024x3 .f32) : Vec F S1x8192x1 .f32 :=
  VO0_2.read (Elt F) (VO0_2.writes (Elt F) VO0_2.junk (kernelRun0_A (F := F) c i arg3 harg3 arg4 harg4 arg5 harg5 arg6 harg6 hc0 x0 x1).1)
/-- And in the second. -/
def out0_A_3 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : cond0 i) (x0 x1 : Vec F S1x1024x3 .f32) : Vec F S1x8192x1 .f32 :=
  VO0_3.read (Elt F) (VO0_3.writes (Elt F) VO0_3.junk (kernelRun0_A (F := F) c i arg3 harg3 arg4 harg4 arg5 harg5 arg6 harg6 hc0 x0 x1).2.1)

/-- What a later step leaves in the first result buffer, over what it found there. -/
def out0_B_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : ¬cond0 i) (x0 x1 : Vec F S1x1024x3 .f32) (xo2 xo3 : Vec F S1x8192x1 .f32) : Vec F S1x8192x1 .f32 :=
  arg5.view.read (Elt F) (arg5.view.writes (Elt F) (harg5.unread xo2) (kernelRun0_B (F := F) c i arg3 harg3 arg4 harg4 arg5 harg5 arg6 harg6 hc0 x0 x1 xo2 xo3).1)
/-- And in the second. -/
def out0_B_3 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : ¬cond0 i) (x0 x1 : Vec F S1x1024x3 .f32) (xo2 xo3 : Vec F S1x8192x1 .f32) : Vec F S1x8192x1 .f32 :=
  arg6.view.read (Elt F) (arg6.view.writes (Elt F) (harg6.unread xo3) (kernelRun0_B (F := F) c i arg3 harg3 arg4 harg4 arg5 harg5 arg6 harg6 hc0 x0 x1 xo2 xo3).2.1)

/-- The two result buffers after step `n`, by recursion on the step. -/
def outsAt0 (c : Dev nD) : (n : ℕ) → n < cfg0.N → Vec F S1x8192x1 .f32 × Vec F S1x8192x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0 ⟨0, hn⟩).mpr (Nat.zero_mod _)) (iblk m c 0 ⟨0, hn⟩) (iblk m c 1 ⟨0, hn⟩))
  | n + 1, hn =>
    if h0 : (n + 1) % 64 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2)

/-- At a batch's first step. -/
theorem outsAt0_A (c : Dev nD) (t : Fin cfg0.N) (h0 : t.val % 64 = 0) :
    outsAt0 m c t.val t.isLt =
      (out0_A_2 c (grid0.coords t) (ms0_0 t) (hs0_0 t) (ms0_1 t) (hs0_1 t) (ms0_2 t) (hs0_2 t) (ms0_3 t) (hs0_3 t) ((hcond0 t).mpr h0) (iblk m c 0 t) (iblk m c 1 t),
       out0_A_3 c (grid0.coords t) (ms0_0 t) (hs0_0 t) (ms0_1 t) (hs0_1 t) (ms0_2 t) (hs0_2 t) (ms0_3 t) (hs0_3 t) ((hcond0 t).mpr h0) (iblk m c 0 t) (iblk m c 1 t)) := by
  obtain ⟨n, hn⟩ := t
  cases n with
  | zero => exact rfl
  | succ n => exact (dif_pos h0).trans rfl

/-- At a later step: over what the step before left. -/
theorem outsAt0_B (c : Dev nD) (t : Fin cfg0.N) (h0 : ¬t.val % 64 = 0) :
    outsAt0 m c t.val t.isLt =
      (out0_B_2 c (grid0.coords t) (ms0_0 t) (hs0_0 t) (ms0_1 t) (hs0_1 t) (ms0_2 t) (hs0_2 t) (ms0_3 t) (hs0_3 t) (fun h => h0 ((hcond0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) (fun h => h0 ((hcond0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after a step each input buffer at its block and each result
    buffer at `outsAt0`; the region's plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- A result buffer is not written back before a step that is not the first of its batch. -/
theorem noFlush_prev_2 (t : Fin cfg0.N) (h0 : ¬t.val % 64 = 0) :
    (cfg0.win 2).flush ⟨t.val - 1, Nat.lt_of_le_of_lt (Nat.sub_le _ _) t.isLt⟩ = false :=
  Bool.eq_false_iff.mpr fun h => by
    have := (flush0_2 ⟨t.val - 1, Nat.lt_of_le_of_lt (Nat.sub_le _ _) t.isLt⟩).mp h
    dsimp only at this
    omega
theorem noFlush_prev_3 (t : Fin cfg0.N) (h0 : ¬t.val % 64 = 0) :
    (cfg0.win 3).flush ⟨t.val - 1, Nat.lt_of_le_of_lt (Nat.sub_le _ _) t.isLt⟩ = false :=
  Bool.eq_false_iff.mpr fun h => by
    have := (flush0_3 ⟨t.val - 1, Nat.lt_of_le_of_lt (Nat.sub_le _ _) t.isLt⟩).mp h
    dsimp only at this
    omega

/-- So at such a step each result buffer holds what the step before left. -/
theorem before0_2_B (c : Dev nD) (t : Fin cfg0.N) (h0 : ¬t.val % 64 = 0) (d) :
    (dats m 0 c).before 2 t d = (outsAt0 m c (t.val - 1) (Nat.lt_of_le_of_lt (Nat.sub_le _ _) t.isLt)).1 :=
  ((dats m 0 c).before_out_kept 2 rfl t (fun h => h0 (by rw [h])) (noFlush_prev_2 t h0) (fun _ => rfl) (fun _ _ => rfl) d).trans (after0_2 m c _)
theorem before0_3_B (c : Dev nD) (t : Fin cfg0.N) (h0 : ¬t.val % 64 = 0) (d) :
    (dats m 0 c).before 3 t d = (outsAt0 m c (t.val - 1) (Nat.lt_of_le_of_lt (Nat.sub_le _ _) t.isLt)).2 :=
  ((dats m 0 c).before_out_kept 3 rfl t (fun h => h0 (by rw [h])) (noFlush_prev_3 t h0) (fun _ => rfl) (fun _ _ => rfl) d).trans (after0_3 m c _)

/-! ## The body obligation, at a generic step -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_eq (c : Dev nD) (t : Fin cfg0.N) (w : Fin cfg0.W) :
    (dats m 0 c).leavesExact w t = owns (c : Thread nD τ) ((cfg0.win w).stage (cfg0.slots t w)) fullShare ((dats m 0 c).after w t) := by
  unfold Dat.leavesExact; rfl

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = (dats m 0 c).Φ t.castSucc from rfl]
  rw [leaves_eq m c t 0, leaves_eq m c t 1, leaves_eq m c t 2, leaves_eq m c t 3, after0_0, after0_1, after0_2, after0_3]
  by_cases h0 : t.val % 64 = 0
  · rw [outsAt0_A m c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0 t).mpr h0) (iblk m c 0 t) (iblk m c 1 t)).2.2 _ _ Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B m c t h0]
    simp only [before0_2_B m c t h0, before0_3_B m c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; rfl
    unfold owns; iexists _; isplitr
    swap; · iexact H3
    ipureintro; rfl

/-- The library's body obligation, at every step. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; every array of the region ends at what the library computes
    from the proof data, every other unscoped buffer as the later operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.Kernel.Fr

end
-- ==== Proof.FrameKI.Tail.lean ====
/-
  The program is one kernel region followed by sixty-seven host operations in four stretches (the main
  line, the first select's three operations, two more of the main line, the second select's three).
  This module states what the region finds in the device buffers when it is entered (nothing runs
  before it, so the launch contents), that the program is the region continued by those stretches,
  and the three facts the frame needs of every later operation: it touches only unscoped device
  buffers, it allocates nothing, and it writes none of the four arrays the region's windows stage
  (the two arguments and the two distance arrays) — each later operation writes one buffer of its
  own, different from those four.
-/
import proofs.«149767_j65481071394839_1_alg».proof.Proof.Gen.KernelIdeal.Launch
import proofs.«149767_j65481071394839_1_alg».proof.Proof.Gen.KernelIdeal.Skeleton
import proofs.«149767_j65481071394839_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the region, stretch by stretch. -/
abbrev tailOps : List (List (HloOp τ sig (Elt F))) := [hostOps1, hostOps1_1, hostOps1_2, hostOps1_3]

/-- Core `c`'s device buffers as the region finds them: the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- The program is the region continued by the four stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- Every later operation touches unscoped device buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- None allocates a buffer. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- An operation whose one written buffer is none of the windows' four arrays. -/
abbrev KeepsArrays (op : HloOp τ sig (Elt F)) : Prop :=
  ∀ w, Proc.devRef .tc (Pipeline.arrRef spec0 w) ∉ op.writes

theorem hostOps1_keeps : (hostOps1 : List (HloOp τ sig (Elt F))).Forall KeepsArrays := by
  simp only [List.Forall]
  repeat' apply And.intro
  all_goals intro w; fin_cases w <;> exact fun h => StableHlo.devRef_ne_of_ne (by decide) (Finset.mem_singleton.mp h)
theorem hostOps1_1_keeps : (hostOps1_1 : List (HloOp τ sig (Elt F))).Forall KeepsArrays := by
  simp only [List.Forall]
  repeat' apply And.intro
  all_goals intro w; fin_cases w <;> exact fun h => StableHlo.devRef_ne_of_ne (by decide) (Finset.mem_singleton.mp h)
theorem hostOps1_2_keeps : (hostOps1_2 : List (HloOp τ sig (Elt F))).Forall KeepsArrays := by
  simp only [List.Forall]
  repeat' apply And.intro
  all_goals intro w; fin_cases w <;> exact fun h => StableHlo.devRef_ne_of_ne (by decide) (Finset.mem_singleton.mp h)
theorem hostOps1_3_keeps : (hostOps1_3 : List (HloOp τ sig (Elt F))).Forall KeepsArrays := by
  simp only [List.Forall]
  repeat' apply And.intro
  all_goals intro w; fin_cases w <;> exact fun h => StableHlo.devRef_ne_of_ne (by decide) (Finset.mem_singleton.mp h)

/-- None writes an array of the region's windows. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop

end Cert.KernelIdeal.Fr

end
-- ==== Proof.FrameKI.Runs.lean ====
/-
  What the body's runs are stated over. The body branches once, on "first row tile and first column
  tile", which over the 4 × 8 × 8 grid walked row-major is "the step number is a multiple of 64": the
  first step of each batch, where both result buffers are filled with +∞. The two input windows hold
  their blocks of the argument arrays at every step, fetched there or kept from the step before.
-/
import proofs.«149767_j65481071394839_1_alg».proof.Proof.FrameKI.Tail

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first cloud's window holds its block at every step, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second cloud's window likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- "First row tile and first column tile", as the body computes it from the grid coordinates. -/
abbrev cond0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- It holds exactly at the first step of each batch. -/
theorem hcond0 : ∀ t : Fin cfg0.N, cond0 (grid0.coords t) ↔ t.val % 64 = 0 :=
  (by decide +kernel : ∀ t : Fin grid0.N, cond0 (grid0.coords t) ↔ t.val % 64 = 0)

/-- The row-tile and column-tile coordinates of step `t`. -/
theorem coord1 : ∀ t : Fin cfg0.N, ((grid0.coords t) 1).val = t.val / 8 % 8 :=
  (by decide +kernel : ∀ t : Fin grid0.N, ((grid0.coords t) 1).val = t.val / 8 % 8)
theorem coord2 : ∀ t : Fin cfg0.N, ((grid0.coords t) 2).val = t.val % 8 :=
  (by decide +kernel : ∀ t : Fin grid0.N, ((grid0.coords t) 2).val = t.val % 8)
theorem coord0 : ∀ t : Fin cfg0.N, ((grid0.coords t) 0).val = t.val / 64 :=
  (by decide +kernel : ∀ t : Fin grid0.N, ((grid0.coords t) 0).val = t.val / 64)

/-! ## The staging memrefs at a step -/

abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192x1 .f32 := win0_3.stage (cfg0.slots t 3)
abbrev hs0_3 (t : Fin cfg0.N) : (ms0_3 t).IsWhole := hstage0_3 ((cfg0.slots t 3).cast nbuf0_3)

/-- The region's invariant: nothing scoped besides the staging buffers, so only the generator register. -/
theorem PhiA0_eq (c : Dev nD) :
    (Pipeline.ΦA spec0 c : sProp 𝕄) = iprop((BI.emp : sProp 𝕄) ∗ (∃ r, prngReg c r)) := by
  unfold Pipeline.ΦA; rw [scopedRest0_eq]

end Cert.KernelIdeal.Fr

end
-- ==== Proof.FrameKI.RunA.lean ====
/-
  The body at the first step of a batch. It first fills both result buffers with +∞, then does what
  every step does: loads its two blocks of points, computes the tile and its two minima, and takes the
  running minimum into one slice of each buffer (the first slice of each, both tile coordinates being
  zero). Each buffer ends as the fill with that slice written over, whatever it held before.
-/
import proofs.«149767_j65481071394839_1_alg».proof.Proof.FrameKI.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S1x8192x1 .f32) (harg5 : arg5.IsWhole) (arg6 : Memref sig .tc .vmem S1x8192x1 .f32) (harg6 : arg6.IsWhole)
    (hc0 : cond0 i)
    (x0 x1 : Vec F S1x1024x3 .f32) :
    Σ' (L2 : List (View.Piece (Elt F) S1x8192x1 .f32)), { L3 : List (View.Piece (Elt F) S1x8192x1 .f32) //
      ∀ (xo2 xo3 : Vec F S1x8192x1 .f32) (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__min_dist_kernel i arg3 harg3 arg4 harg4 arg5 harg5 arg6 harg6) K } := by
  refine ⟨?_, ?_, fun xo2 xo3 E K => ?run⟩
  case run =>
    simp only [cc0__min_dist_kernel_eq_skeleton]; unfold cc0__min_dist_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.KernelIdeal.Fr

end
-- ==== Proof.FrameKI.RunB.lean ====
/-
  The body at a step that is not the first of its batch. It loads its two blocks of points, computes
  the tile and its two minima, and takes the running minimum into ONE slice of each result buffer:
  rows 1024·(row tile) … of the first, rows 1024·(column tile) … of the second. Each buffer ends as it
  was found with that one slice written over.
-/
import proofs.«149767_j65481071394839_1_alg».proof.Proof.FrameKI.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S1x8192x1 .f32) (harg5 : arg5.IsWhole) (arg6 : Memref sig .tc .vmem S1x8192x1 .f32) (harg6 : arg6.IsWhole)
    (hc0 : ¬cond0 i)
    (x0 x1 : Vec F S1x1024x3 .f32) (xo2 xo3 : Vec F S1x8192x1 .f32) :
    Σ' (L2 : List (View.Piece (Elt F) S1x8192x1 .f32)), { L3 : List (View.Piece (Elt F) S1x8192x1 .f32) //
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__min_dist_kernel i arg3 harg3 arg4 harg4 arg5 harg5 arg6 harg6) K } := by
  refine ⟨?_, ?_, fun E K => ?run⟩
  case run =>
    simp only [cc0__min_dist_kernel_eq_skeleton]; unfold cc0__min_dist_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

end Cert.KernelIdeal.Fr

end
-- ==== Proof.FrameKI.Frame.lean ====
/-
  The frame of the tiled sweep. Each result buffer stays in place for the 64 steps of a batch and is
  written back after the last of them, so what it holds after a step is stated by recursion on the
  step: at the first step of a batch the fill with +∞ under the first slice's update, whatever the
  buffer held; at a later step what the step before left with one more slice updated. With those
  contents as the proof data, the body's two runs discharge the obligation at every step, the
  library's frame run around a region followed by host operations applies, and the two argument
  arrays — inputs of the region, written by no later operation — end as they began.
-/
import proofs.«149767_j65481071394839_1_alg».proof.Proof.FrameKI.RunA
import proofs.«149767_j65481071394839_1_alg».proof.Proof.FrameKI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a step leaves in the two result buffers -/

/-- One staging buffer of each result window, through which fill-covered contents are stated. -/
abbrev VO0_2 : View sig .tc .vmem S1x8192x1 .f32 := (Memref.whole cc0_stg2_0 : Memref sig .tc .vmem S1x8192x1 .f32).view
abbrev VO0_3 : View sig .tc .vmem S1x8192x1 .f32 := (Memref.whole cc0_stg3_0 : Memref sig .tc .vmem S1x8192x1 .f32).view

/-- At a batch's first step the fill alone covers the first result buffer. -/
theorem cover0_A_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : cond0 i) (x0 x1 : Vec F S1x1024x3 .f32) (y : S1x8192x1.Idx) :
    ∃ pc ∈ (kernelRun0_A (F := F) c i arg3 harg3 arg4 harg4 arg5 harg5 arg6 harg6 hc0 x0 x1).1, y ∈ pc.1.set := by
  refine ⟨⟨Rect.unit (s := S1x8192x1) ![0, 0, 0] S1x8192x1.size inb_S1x8192x1_S1x8192x1_0_0_0, k0_pay3⟩,
    List.mem_cons_of_mem _ (List.mem_singleton.mpr rfl), ?_⟩
  show y ∈ (Rect.unit (s := S1x8192x1) ![0, 0, 0] S1x8192x1.size inb_S1x8192x1_S1x8192x1_0_0_0).set
  rw [Rect.mem_set_unit]
  intro a
  have := (y a).isLt
  fin_cases a <;> exact ⟨Nat.zero_le _, by simpa using this⟩

/-- And the second. -/
theorem cover0_A_3 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : cond0 i) (x0 x1 : Vec F S1x1024x3 .f32) (y : S1x8192x1.Idx) :
    ∃ pc ∈ (kernelRun0_A (F := F) c i arg3 harg3 arg4 harg4 arg5 harg5 arg6 harg6 hc0 x0 x1).2.1, y ∈ pc.1.set := by
  refine ⟨⟨Rect.unit (s := S1x8192x1) ![0, 0, 0] S1x8192x1.size inb_S1x8192x1_S1x8192x1_0_0_0, k0_pay4⟩,
    List.mem_cons_of_mem _ (List.mem_singleton.mpr rfl), ?_⟩
  show y ∈ (Rect.unit (s := S1x8192x1) ![0, 0, 0] S1x8192x1.size inb_S1x8192x1_S1x8192x1_0_0_0).set
  rw [Rect.mem_set_unit]
  intro a
  have := (y a).isLt
  fin_cases a <;> exact ⟨Nat.zero_le _, by simpa using this⟩

/-- What a batch's first step leaves in the first result buffer. -/
def out0_A_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : cond0 i) (x0 x1 : Vec F S1x1024x3 .f32) : Vec F S1x8192x1 .f32 :=
  VO0_2.read (Elt F) (VO0_2.writes (Elt F) VO0_2.junk (kernelRun0_A (F := F) c i arg3 harg3 arg4 harg4 arg5 harg5 arg6 harg6 hc0 x0 x1).1)
/-- And in the second. -/
def out0_A_3 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : cond0 i) (x0 x1 : Vec F S1x1024x3 .f32) : Vec F S1x8192x1 .f32 :=
  VO0_3.read (Elt F) (VO0_3.writes (Elt F) VO0_3.junk (kernelRun0_A (F := F) c i arg3 harg3 arg4 harg4 arg5 harg5 arg6 harg6 hc0 x0 x1).2.1)

/-- What a later step leaves in the first result buffer, over what it found there. -/
def out0_B_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : ¬cond0 i) (x0 x1 : Vec F S1x1024x3 .f32) (xo2 xo3 : Vec F S1x8192x1 .f32) : Vec F S1x8192x1 .f32 :=
  arg5.view.read (Elt F) (arg5.view.writes (Elt F) (harg5.unread xo2) (kernelRun0_B (F := F) c i arg3 harg3 arg4 harg4 arg5 harg5 arg6 harg6 hc0 x0 x1 xo2 xo3).1)
/-- And in the second. -/
def out0_B_3 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : ¬cond0 i) (x0 x1 : Vec F S1x1024x3 .f32) (xo2 xo3 : Vec F S1x8192x1 .f32) : Vec F S1x8192x1 .f32 :=
  arg6.view.read (Elt F) (arg6.view.writes (Elt F) (harg6.unread xo3) (kernelRun0_B (F := F) c i arg3 harg3 arg4 harg4 arg5 harg5 arg6 harg6 hc0 x0 x1 xo2 xo3).2.1)

/-- The two result buffers after step `n`, by recursion on the step. -/
def outsAt0 (c : Dev nD) : (n : ℕ) → n < cfg0.N → Vec F S1x8192x1 .f32 × Vec F S1x8192x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0 ⟨0, hn⟩).mpr (Nat.zero_mod _)) (iblk m c 0 ⟨0, hn⟩) (iblk m c 1 ⟨0, hn⟩))
  | n + 1, hn =>
    if h0 : (n + 1) % 64 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2)

/-- At a batch's first step. -/
theorem outsAt0_A (c : Dev nD) (t : Fin cfg0.N) (h0 : t.val % 64 = 0) :
    outsAt0 m c t.val t.isLt =
      (out0_A_2 c (grid0.coords t) (ms0_0 t) (hs0_0 t) (ms0_1 t) (hs0_1 t) (ms0_2 t) (hs0_2 t) (ms0_3 t) (hs0_3 t) ((hcond0 t).mpr h0) (iblk m c 0 t) (iblk m c 1 t),
       out0_A_3 c (grid0.coords t) (ms0_0 t) (hs0_0 t) (ms0_1 t) (hs0_1 t) (ms0_2 t) (hs0_2 t) (ms0_3 t) (hs0_3 t) ((hcond0 t).mpr h0) (iblk m c 0 t) (iblk m c 1 t)) := by
  obtain ⟨n, hn⟩ := t
  cases n with
  | zero => exact rfl
  | succ n => exact (dif_pos h0).trans rfl

/-- At a later step: over what the step before left. -/
theorem outsAt0_B (c : Dev nD) (t : Fin cfg0.N) (h0 : ¬t.val % 64 = 0) :
    outsAt0 m c t.val t.isLt =
      (out0_B_2 c (grid0.coords t) (ms0_0 t) (hs0_0 t) (ms0_1 t) (hs0_1 t) (ms0_2 t) (hs0_2 t) (ms0_3 t) (hs0_3 t) (fun h => h0 ((hcond0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) (fun h => h0 ((hcond0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after a step each input buffer at its block and each result
    buffer at `outsAt0`; the region's plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- A result buffer is not written back before a step that is not the first of its batch. -/
theorem noFlush_prev_2 (t : Fin cfg0.N) (h0 : ¬t.val % 64 = 0) :
    (cfg0.win 2).flush ⟨t.val - 1, Nat.lt_of_le_of_lt (Nat.sub_le _ _) t.isLt⟩ = false :=
  Bool.eq_false_iff.mpr fun h => by
    have := (flush0_2 ⟨t.val - 1, Nat.lt_of_le_of_lt (Nat.sub_le _ _) t.isLt⟩).mp h
    dsimp only at this
    omega
theorem noFlush_prev_3 (t : Fin cfg0.N) (h0 : ¬t.val % 64 = 0) :
    (cfg0.win 3).flush ⟨t.val - 1, Nat.lt_of_le_of_lt (Nat.sub_le _ _) t.isLt⟩ = false :=
  Bool.eq_false_iff.mpr fun h => by
    have := (flush0_3 ⟨t.val - 1, Nat.lt_of_le_of_lt (Nat.sub_le _ _) t.isLt⟩).mp h
    dsimp only at this
    omega

/-- So at such a step each result buffer holds what the step before left. -/
theorem before0_2_B (c : Dev nD) (t : Fin cfg0.N) (h0 : ¬t.val % 64 = 0) (d) :
    (dats m 0 c).before 2 t d = (outsAt0 m c (t.val - 1) (Nat.lt_of_le_of_lt (Nat.sub_le _ _) t.isLt)).1 :=
  ((dats m 0 c).before_out_kept 2 rfl t (fun h => h0 (by rw [h])) (noFlush_prev_2 t h0) (fun _ => rfl) (fun _ _ => rfl) d).trans (after0_2 m c _)
theorem before0_3_B (c : Dev nD) (t : Fin cfg0.N) (h0 : ¬t.val % 64 = 0) (d) :
    (dats m 0 c).before 3 t d = (outsAt0 m c (t.val - 1) (Nat.lt_of_le_of_lt (Nat.sub_le _ _) t.isLt)).2 :=
  ((dats m 0 c).before_out_kept 3 rfl t (fun h => h0 (by rw [h])) (noFlush_prev_3 t h0) (fun _ => rfl) (fun _ _ => rfl) d).trans (after0_3 m c _)

/-! ## The body obligation, at a generic step -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_eq (c : Dev nD) (t : Fin cfg0.N) (w : Fin cfg0.W) :
    (dats m 0 c).leavesExact w t = owns (c : Thread nD τ) ((cfg0.win w).stage (cfg0.slots t w)) fullShare ((dats m 0 c).after w t) := by
  unfold Dat.leavesExact; rfl

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = (dats m 0 c).Φ t.castSucc from rfl]
  rw [leaves_eq m c t 0, leaves_eq m c t 1, leaves_eq m c t 2, leaves_eq m c t 3, after0_0, after0_1, after0_2, after0_3]
  by_cases h0 : t.val % 64 = 0
  · rw [outsAt0_A m c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0 t).mpr h0) (iblk m c 0 t) (iblk m c 1 t)).2.2 _ _ Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B m c t h0]
    simp only [before0_2_B m c t h0, before0_3_B m c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; rfl
    unfold owns; iexists _; isplitr
    swap; · iexact H3
    ipureintro; rfl

/-- The library's body obligation, at every step. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; every array of the region ends at what the library computes
    from the proof data, every other unscoped buffer as the later operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.Fr

end
-- ==== Proof.Spec.lean ====
/-
  The mathematics both programs compute, over the extended reals, with no program in sight.

  Two clouds of 8192 points in three coordinates, four batches. For a point n of the first cloud and a
  point m of the second, the squared distance is taken through the expansion
  |x|² + |y|² − 2·⟨x, y⟩, clamped below at zero. `near1` is, for each point of the first cloud, the
  least such value over the second cloud; `near2` the same with the clouds exchanged. A least value
  is written as a fold of `min` from +∞, so that its characteristic property — c is below it exactly
  when c is below +∞ and below every term — is the one lemma every later argument uses.

  `seenBy` is the part of that fold a tiled sweep has taken after `s` of its 64 steps: the sweep walks
  the 8 × 8 tiles of 1024 × 1024 pairs row by row, so after step `s` a point of the first cloud in tile
  row `j` has met the column tiles `k` with `8·j + k ≤ s`, and a point of the second cloud in column tile
  `k` has met the row tiles `j` with `8·j + k ≤ s`.
-/
import Idealize.ShloMosaic.PureOps.Ideal
import Idealize.ShloMosaic.Lib.ValueIdx
import Mathlib.Data.Finset.Fold
import Mathlib.Order.Lattice

noncomputable section

open scoped BigOperators

namespace Chamfer

open Idealize.ShloMosaic Idealize.ShloMosaic.ValueIdx

/-- A batch of point clouds: batch, point, coordinate. -/
abbrev Pts : Shape := ⟨3, ![4, 8192, 3]⟩
/-- One value per batch and point. -/
abbrev Dst : Shape := ⟨2, ![4, 8192]⟩

/-- +∞, 2 and 0 as both programs spell them. -/
abbrev top : EReal := Ideal.ofBits .f32 0x7F800000#32
abbrev two : EReal := Ideal.ofBits .f32 0x40000000#32
abbrev zero : EReal := Ideal.ofBits .f32 0x00000000#32

/-- The squared norm of point `n` of batch `b`. -/
def sq (x : Pts.Idx → EReal) (b : Fin 4) (n : Fin 8192) : EReal :=
  ∑ k : Fin 3, x (ix3 b n k) * x (ix3 b n k)

/-- The inner product of point `n` of `x` with point `m` of `y`. -/
def inner (x y : Pts.Idx → EReal) (b : Fin 4) (n m : Fin 8192) : EReal :=
  ∑ k : Fin 3, x (ix3 b n k) * y (ix3 b m k)

/-- The clamped squared distance between point `n` of `x` and point `m` of `y`. -/
def d (x y : Pts.Idx → EReal) (b : Fin 4) (n m : Fin 8192) : EReal :=
  max (sq x b n + sq y b m - two * inner x y b n m) zero

/-- The least clamped squared distance from point `n` of `x` to the cloud `y`. -/
def near1 (x y : Pts.Idx → EReal) (b : Fin 4) (n : Fin 8192) : EReal :=
  Finset.univ.fold min top fun m => d x y b n m

/-- The least clamped squared distance from point `m` of `y` to the cloud `x`. -/
def near2 (x y : Pts.Idx → EReal) (b : Fin 4) (m : Fin 8192) : EReal :=
  Finset.univ.fold min top fun n => d x y b n m

/-- Both as arrays over batch and point. -/
def dist1 (x y : Pts.Idx → EReal) : Dst.Idx → EReal := fun i => near1 x y (i 0) (i 1)
def dist2 (x y : Pts.Idx → EReal) : Dst.Idx → EReal := fun i => near2 x y (i 0) (i 1)

/-- What a point `n` of the first cloud has taken of its fold after step `s` of the sweep. -/
def seen1 (x y : Pts.Idx → EReal) (b : Fin 4) (s : ℕ) (n : Fin 8192) : EReal :=
  (Finset.univ.filter fun m : Fin 8192 => 8 * (n.val / 1024) + m.val / 1024 ≤ s).fold min top fun m => d x y b n m

/-- What a point `m` of the second cloud has taken of its fold after step `s` of the sweep. -/
def seen2 (x y : Pts.Idx → EReal) (b : Fin 4) (s : ℕ) (m : Fin 8192) : EReal :=
  (Finset.univ.filter fun n : Fin 8192 => 8 * (n.val / 1024) + m.val / 1024 ≤ s).fold min top fun n => d x y b n m

/-- A fold of `min` is the greatest lower bound of its start and its terms. -/
theorem le_foldmin_iff {ι : Type} (s : Finset ι) (f : ι → EReal) (b c : EReal) :
    c ≤ s.fold min b f ↔ c ≤ b ∧ ∀ i ∈ s, c ≤ f i := Finset.le_fold_min c

/-- Two extended reals with the same lower bounds are equal. -/
theorem eq_of_lower {a b : EReal} (h : ∀ c, c ≤ a ↔ c ≤ b) : a = b :=
  le_antisymm ((h a).mp le_rfl) ((h b).mpr le_rfl)

/-- After the last step every pair of tiles has been met. -/
theorem seen1_last (x y : Pts.Idx → EReal) (b : Fin 4) (n : Fin 8192) : seen1 x y b 63 n = near1 x y b n := by
  have h : (Finset.univ.filter fun m : Fin 8192 => 8 * (n.val / 1024) + m.val / 1024 ≤ 63) = Finset.univ :=
    Finset.filter_true_of_mem fun m _ => by have := n.isLt; have := m.isLt; omega
  unfold seen1 near1
  rw [h]

theorem seen2_last (x y : Pts.Idx → EReal) (b : Fin 4) (m : Fin 8192) : seen2 x y b 63 m = near2 x y b m := by
  have h : (Finset.univ.filter fun n : Fin 8192 => 8 * (n.val / 1024) + m.val / 1024 ≤ 63) = Finset.univ :=
    Finset.filter_true_of_mem fun n _ => by have := n.isLt; have := m.isLt; omega
  unfold seen2 near2
  rw [h]

end Chamfer

end
-- ==== Proof.TileValue.lean ====
/-
  What one step of the sweep computes from its two blocks of 1024 points, read at an index at the
  exact reading of the floats: the tile of clamped squared distances (norms by three-term sums, the
  matrix product into a zero accumulator the three-term inner product), its minimum along each axis
  as a fold of `min` from +∞, the running minimum of a slice with a tile minimum, and the fill with +∞.
-/
import proofs.«149767_j65481071394839_1_alg».proof.Proof.Spec
import proofs.«149767_j65481071394839_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.TileValue

open Cert.KernelIdeal Cert.KernelIdeal.Gen Idealize.ShloMosaic Idealize.ShloMosaic.ValueIdx

/-- The tile entry for row point `r` of the first block and column point `c` of the second. -/
def tile (v5 v7 : Vec Ideal S1x1024x3 .f32) (r c : Fin 1024) : EReal :=
  max ((∑ k : Fin 3, v5 (ix3 (0 : Fin 1) r k) * v5 (ix3 (0 : Fin 1) r k)) + (∑ k : Fin 3, v7 (ix3 (0 : Fin 1) c k) * v7 (ix3 (0 : Fin 1) c k))
        - Chamfer.two * ∑ k : Fin 3, v5 (ix3 (0 : Fin 1) r k) * v7 (ix3 (0 : Fin 1) c k)) Chamfer.zero

/-! ## The stages that are not pointwise, each read at explicit coordinates -/

/-- A vector of length a cast to the column [a, 1] reads, at (i, u), the operand at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A block of points with its leading unit axis dropped. -/
private theorem pts_apply (v : Vec Ideal S1x1024x3 .f32) (r : Fin 1024) (k : Fin 3) :
    shapeCast S1024x3 v shapeCasts_S1x1024x3_S1024x3 (ix2 r k) = v (ix3 (0 : Fin 1) r k) :=
  shapeCast_1ab_ab_apply v _ r k

/-- The sum of the squares along the coordinate axis is the three-term sum. -/
private theorem sqnorm_apply (x : FVec Ideal S1024x3 .f32) (r : Fin 1024) :
    multiReduction (F := Ideal) .add [1] S1024 (mulf x x) 0x00000000#32 reduces_S1024x3_S1024 (.inl rfl) rfl (ix1 r)
      = ∑ k : Fin 3, x (ix2 r k) * x (ix2 r k) := by
  refine (Ideal.multiReduction_add_single (mulf x x) 0x00000000#32 reduces_S1024x3_S1024 (.inl rfl) rfl (ix1 r)).trans ?_
  refine Finset.sum_congr rfl fun k _ => ?_
  have e : reduces_S1024x3_S1024.lift (ix1 r) k = ix2 r k :=
    funext fun a => Fin.ext (by match a with | ⟨0, _⟩ => rfl | ⟨1, _⟩ => rfl)
  rw [e]
  rfl

/-! The matrix product contracts the coordinate axis of both operands: its left index at output (r, c) and
contraction position q is (r, q), its right index (c, q). One lemma per axis. -/

private theorem lhs_dot_0 (i : S1024x1024.Idx) (q : dot_S1024x3_S1024x3_S1024x1024_1_1_0_0_n_n.contr.Idx) :
    (dot_S1024x3_S1024x3_S1024x1024_1_1_0_0_n_n.lhsIdx i q 0).val = (i 0).val := by
  unfold DotDims.lhsIdx
  rw [dif_neg (show ¬(0 : Fin S1024x3.rank) ∈ dot_S1024x3_S1024x3_S1024x1024_1_1_0_0_n_n.lhsBatch by decide), dif_pos (show (0 : Fin S1024x3.rank) ∈ dot_S1024x3_S1024x3_S1024x1024_1_1_0_0_n_n.lhsNonContracting by decide)]
  rfl
private theorem lhs_dot_1 (i : S1024x1024.Idx) (q : dot_S1024x3_S1024x3_S1024x1024_1_1_0_0_n_n.contr.Idx) :
    (dot_S1024x3_S1024x3_S1024x1024_1_1_0_0_n_n.lhsIdx i q 1).val = (q ⟨0, by decide⟩).val :=
  dot_S1024x3_S1024x3_S1024x1024_1_1_0_0_n_n.lhsIdx_val_of_single rfl i q
private theorem rhs_dot_0 (i : S1024x1024.Idx) (q : dot_S1024x3_S1024x3_S1024x1024_1_1_0_0_n_n.contr.Idx) :
    (dot_S1024x3_S1024x3_S1024x1024_1_1_0_0_n_n.rhsIdx i q 0).val = (i 1).val := by
  unfold DotDims.rhsIdx
  rw [dif_neg (show ¬(0 : Fin S1024x3.rank) ∈ dot_S1024x3_S1024x3_S1024x1024_1_1_0_0_n_n.rhsBatch by decide), dif_pos (show (0 : Fin S1024x3.rank) ∈ dot_S1024x3_S1024x3_S1024x1024_1_1_0_0_n_n.rhsNonContracting by decide)]
  rfl
private theorem rhs_dot_1 (i : S1024x1024.Idx) (q : dot_S1024x3_S1024x3_S1024x1024_1_1_0_0_n_n.contr.Idx) :
    (dot_S1024x3_S1024x3_S1024x1024_1_1_0_0_n_n.rhsIdx i q 1).val = (q ⟨0, by decide⟩).val :=
  dot_S1024x3_S1024x3_S1024x1024_1_1_0_0_n_n.rhsIdx_val_of_single rfl i q

/-- The matrix product into the zero accumulator is the three-term inner product of row r of the left operand
with row c of the right. -/
private theorem gram_apply (x y : FVec Ideal S1024x3 .f32) (r c : Fin 1024) :
    matmul dot_S1024x3_S1024x3_S1024x1024_1_1_0_0_n_n (some .fp32) x y (constant (F := Ideal) S1024x1024 .f32 0x00000000#32) (ix2 r c)
      = ∑ k : Fin 3, x (ix2 r k) * y (ix2 c k) := by
  simp only [matmul]
  rw [Ideal.matmul_constant_zero_apply, ← Equiv.sum_comp (contrEquiv1 dot_S1024x3_S1024x3_S1024x1024_1_1_0_0_n_n 3 rfl rfl).symm]
  refine Finset.sum_congr rfl fun k _ => ?_
  have hk := contrEquiv1_symm_val dot_S1024x3_S1024x3_S1024x1024_1_1_0_0_n_n 3 rfl rfl k
  have el : dot_S1024x3_S1024x3_S1024x1024_1_1_0_0_n_n.lhsIdx (ix2 r c) ((contrEquiv1 dot_S1024x3_S1024x3_S1024x1024_1_1_0_0_n_n 3 rfl rfl).symm k) = ix2 r k := funext fun a => Fin.ext (by
    match a with
    | ⟨0, _⟩ => exact lhs_dot_0 _ _
    | ⟨1, _⟩ => exact (lhs_dot_1 _ _).trans hk)
  have er : dot_S1024x3_S1024x3_S1024x1024_1_1_0_0_n_n.rhsIdx (ix2 r c) ((contrEquiv1 dot_S1024x3_S1024x3_S1024x1024_1_1_0_0_n_n 3 rfl rfl).symm k) = ix2 c k := funext fun a => Fin.ext (by
    match a with
    | ⟨0, _⟩ => exact rhs_dot_0 _ _
    | ⟨1, _⟩ => exact (rhs_dot_1 _ _).trans hk)
  rw [el, er]

/-- A minimum over one axis, from the accumulator's value, is the fold of min over that axis's coordinates. -/
private theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum of each row of a 1024 by 1024 tile. -/
private theorem rowmin_apply (x : FVec Ideal S1024x1024 .f32) (r : Fin 1024) :
    multiReduction (F := Ideal) .minimumf [1] S1024 x 0x7F800000#32 reduces_S1024x1024_S1024 (.inl rfl) rfl (ix1 r)
      = Finset.univ.fold min Chamfer.top fun c : Fin 1024 => x (ix2 r c) := by
  refine (multiReduction_minimumf_single x 0x7F800000#32 reduces_S1024x1024_S1024 (.inl rfl) rfl (ix1 r)).trans ?_
  have e : (x ∘ reduces_S1024x1024_S1024.lift (ix1 r)) = fun c : Fin 1024 => x (ix2 r c) :=
    funext fun c => congrArg x (funext fun a => Fin.ext (by match a with | ⟨0, _⟩ => rfl | ⟨1, _⟩ => rfl))
  rw [e]
  rfl

/-- The minimum of each column of a 1024 by 1024 tile. -/
private theorem colmin_apply (x : FVec Ideal S1024x1024 .f32) (c : Fin 1024) :
    multiReduction (F := Ideal) .minimumf [0] S1024 x 0x7F800000#32 reduces_S1024x1024_S1024_2 (.inl rfl) rfl (ix1 c)
      = Finset.univ.fold min Chamfer.top fun r : Fin 1024 => x (ix2 r c) := by
  refine (multiReduction_minimumf_single x 0x7F800000#32 reduces_S1024x1024_S1024_2 (.inl rfl) rfl (ix1 c)).trans ?_
  have e : (x ∘ reduces_S1024x1024_S1024_2.lift (ix1 c)) = fun r : Fin 1024 => x (ix2 r c) :=
    funext fun r => congrArg x (funext fun a => Fin.ext (by match a with | ⟨0, _⟩ => rfl | ⟨1, _⟩ => rfl))
  rw [e]
  rfl

theorem pay5_apply (v5 v7 : Vec Ideal S1x1024x3 .f32) (r c : Fin 1024) :
    k0_pay5 (F := Ideal) v5 v7 (ix2 r c) = tile v5 v7 r c := by
  unfold k0_pay5 tile
  dsimp only
  rw [maximumf_apply, subf_apply, addf_apply, mulf_apply, broadcast_apply, broadcast_apply,
    broadcastTo_a1_ab_apply, broadcastTo_1b_ab_apply, shapeCast_a_a1_apply, shapeCast_a_1a_apply,
    sqnorm_apply, sqnorm_apply, gram_apply]
  refine congrArg₂ max (congrArg₂ (· - ·) (congrArg₂ (· + ·) (Finset.sum_congr rfl fun k _ => ?_) (Finset.sum_congr rfl fun k _ => ?_))
    (congrArg (Chamfer.two * ·) (Finset.sum_congr rfl fun k _ => ?_))) rfl
  · exact congrArg₂ (· * ·) (pts_apply v5 r k) (pts_apply v5 r k)
  · exact congrArg₂ (· * ·) (pts_apply v7 c k) (pts_apply v7 c k)
  · exact congrArg₂ (· * ·) (pts_apply v5 r k) (pts_apply v7 c k)

/-- The column minima of the tile (the minimum over the first block's points). -/
theorem pay6_apply (v5 v7 : Vec Ideal S1x1024x3 .f32) (c : Fin 1024) :
    k0_pay6 (F := Ideal) v5 v7 (ix2 c (0 : Fin 1)) = Finset.univ.fold min Chamfer.top fun r : Fin 1024 => tile v5 v7 r c := by
  unfold k0_pay6
  refine (shapeCast_a_a1_apply _ _ c (0 : Fin 1)).trans ?_
  refine (colmin_apply (k0_pay5 (F := Ideal) v5 v7) c).trans ?_
  exact congrArg (Finset.univ.fold min Chamfer.top) (funext fun r => pay5_apply v5 v7 r c)

/-- The running minimum of the loaded slice with the row minima of the tile. -/
theorem pay7_apply (v5 v7 : Vec Ideal S1x1024x3 .f32) (v33 : Vec Ideal S1x1024x1 .f32) (r : Fin 1024) :
    k0_pay7 (F := Ideal) v5 v7 v33 (ix2 r (0 : Fin 1))
      = min (v33 (ix3 (0 : Fin 1) r (0 : Fin 1))) (Finset.univ.fold min Chamfer.top fun c : Fin 1024 => tile v5 v7 r c) := by
  unfold k0_pay7
  refine (minimumf_apply _ _ _).trans ?_
  refine congrArg₂ min (shapeCast_1ab_ab_apply v33 _ r (0 : Fin 1)) ?_
  refine (shapeCast_a_a1_apply _ _ r (0 : Fin 1)).trans ?_
  refine (rowmin_apply (k0_pay5 (F := Ideal) v5 v7) r).trans ?_
  exact congrArg (Finset.univ.fold min Chamfer.top) (funext fun c => pay5_apply v5 v7 r c)

theorem pay1_apply (v35 : FVec Ideal S1024x1 .f32) (r : Fin 1024) :
    k0_pay1 (F := Ideal) v35 (ix3 (0 : Fin 1) r (0 : Fin 1)) = v35 (ix2 r (0 : Fin 1)) := by
  unfold k0_pay1
  exact shapeCast_ab_1ab_apply v35 _ (0 : Fin 1) r (0 : Fin 1)

theorem pay2_apply (v27 : FVec Ideal S1024x1 .f32) (v41 : Vec Ideal S1x1024x1 .f32) (c : Fin 1024) :
    k0_pay2 (F := Ideal) v27 v41 (ix3 (0 : Fin 1) c (0 : Fin 1)) = min (v41 (ix3 (0 : Fin 1) c (0 : Fin 1))) (v27 (ix2 c (0 : Fin 1))) := by
  unfold k0_pay2
  refine (shapeCast_ab_1ab_apply _ _ (0 : Fin 1) c (0 : Fin 1)).trans ?_
  refine (minimumf_apply _ _ _).trans ?_
  exact congrArg (fun z => min z (v27 (ix2 c (0 : Fin 1)))) (shapeCast_1ab_ab_apply v41 _ c (0 : Fin 1))

theorem pay3_apply (y : S1x8192x1.Idx) : k0_pay3 (F := Ideal) y = Chamfer.top := by
  unfold k0_pay3 shapeCast
  rfl

theorem pay4_apply (y : S1x8192x1.Idx) : k0_pay4 (F := Ideal) y = Chamfer.top := by
  unfold k0_pay4 shapeCast
  rfl

end Cert.KernelIdeal.TileValue

end
-- ==== Proof.KPieces.lean ====
/-
  What a step leaves in the two result buffers, read at a point, at the exact reading of the floats.
  At the first step of a batch (both tile coordinates zero) the first 1024 points hold the minimum of
  +∞ with their tile minimum, every other point +∞. At a later step the points of the step's slice hold
  the minimum of what was there with their tile minimum, every other point what was there. The first
  buffer's slice is the row tile and its tile minimum runs along the tile's row; the second buffer's
  slice is the column tile and its tile minimum runs along the tile's column.
-/
import proofs.«149767_j65481071394839_1_alg».proof.Proof.FrameKI.Frame
import proofs.«149767_j65481071394839_1_alg».proof.Proof.TileValue
import Idealize.ShloMosaic.Lib.WritesUnit
import Idealize.ShloMosaic.Lib.Pipeline.Value

set_option maxRecDepth 16384

noncomputable section

namespace Cert.KernelIdeal.KV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

/-! ## Reading one slice over the rest, a whole-buffer fill, and the two kinds of load -/

/-- The zero offsets of a rank-3 buffer, as the constant function. -/
private theorem zero3 : (![0, 0, 0] : Fin 3 → ℕ) = fun _ => 0 := by
  funext a; match a with | ⟨0, _⟩ => rfl | ⟨1, _⟩ => rfl | ⟨2, _⟩ => rfl

/-- The newest piece being the 1024 points from o on: a point in [o, o + 1024) reads the piece's payload at its
position in the slice, any other point what the rest of the list left. -/
private theorem read_slice_top (v : View sig .tc .vmem S1x8192x1 .f32) (f : v.ty.Contents (Elt Ideal))
    {off : Fin 3 → ℕ} {o : ℕ} (heq : off = ![0, o, 0]) (inb : ∀ a, off a + (![1, 1024, 1] : Fin 3 → ℕ) a ≤ S1x8192x1.size a)
    (w : (Rect.unit (s := S1x8192x1) off ![1, 1024, 1] inb).shape.Idx → Elt Ideal .f32)
    (L : List (View.Piece (Elt Ideal) S1x8192x1 .f32)) (p : Fin 8192) :
    v.read (Elt Ideal) (v.writes (Elt Ideal) f ((⟨Rect.unit (s := S1x8192x1) off ![1, 1024, 1] inb, w⟩ : View.Piece (Elt Ideal) S1x8192x1 .f32) :: L))
        (ix3 (0 : Fin 1) p (0 : Fin 1))
      = if h : o ≤ p.val ∧ p.val < o + 1024 then w (ix3 (0 : Fin 1) (⟨p.val - o, by omega⟩ : Fin 1024) (0 : Fin 1))
        else v.read (Elt Ideal) (v.writes (Elt Ideal) f L) (ix3 (0 : Fin 1) p (0 : Fin 1)) := by
  by_cases h : o ≤ p.val ∧ p.val < o + 1024
  · rw [dif_pos h]
    refine View.read_writes_cons_unit_of_mem v f inb w L (ix3 (0 : Fin 1) p (0 : Fin 1))
      (ix3 (0 : Fin 1) (⟨p.val - o, by omega⟩ : Fin 1024) (0 : Fin 1)) heq fun a => ?_
    match a with
    | ⟨0, _⟩ => exact (Nat.zero_add _).symm
    | ⟨1, _⟩ => show p.val = o + (p.val - o); omega
    | ⟨2, _⟩ => exact (Nat.zero_add _).symm
  · rw [dif_neg h]
    exact View.read_writes_cons_unit_of_not_mem v f inb w L (ix3 (0 : Fin 1) p (0 : Fin 1)) heq (1 : Fin 3)
      (by show p.val < o ∨ o + 1024 ≤ p.val; omega)

/-- The newest piece being a store through the whole buffer, every point reads its payload there. -/
private theorem read_fill_top (v : View sig .tc .vmem S1x8192x1 .f32) (f : v.ty.Contents (Elt Ideal))
    (inb : ∀ a, (![0, 0, 0] : Fin 3 → ℕ) a + S1x8192x1.size a ≤ S1x8192x1.size a)
    (w : (Rect.unit (s := S1x8192x1) ![0, 0, 0] S1x8192x1.size inb).shape.Idx → Elt Ideal .f32)
    (L : List (View.Piece (Elt Ideal) S1x8192x1 .f32)) (y : S1x8192x1.Idx) :
    v.read (Elt Ideal) (v.writes (Elt Ideal) f ((⟨Rect.unit (s := S1x8192x1) ![0, 0, 0] S1x8192x1.size inb, w⟩ : View.Piece (Elt Ideal) S1x8192x1 .f32) :: L)) y
      = w y := by
  refine View.read_writes_cons_unit_of_mem v f inb w L y y rfl fun a => ?_
  match a with
  | ⟨0, _⟩ => exact (Nat.zero_add _).symm
  | ⟨1, _⟩ => exact (Nat.zero_add _).symm
  | ⟨2, _⟩ => exact (Nat.zero_add _).symm

/-- A load of a whole block of points reads the block. -/
private theorem load_block (arg : Memref sig .tc .vmem S1x1024x3 .f32) (harg : arg.IsWhole) (x : Vec Ideal S1x1024x3 .f32) :
    View.readAt (Elt Ideal) arg.view (Rect.unit (s := S1x1024x3) ![0, 0, 0] S1x1024x3.size inb_S1x1024x3_S1x1024x3_0_0_0).toLoadRect (harg.unread x) = x := by
  rw [View.readAt_eq_ld, harg.read_unread, View.ld_unit_zero (S := S1x1024x3) zero3]

/-- A load of the 1024 points from o on reads, at position r of the slice, the buffer at point o + r. -/
private theorem load_slice (v : View sig .tc .vmem S1x8192x1 .f32) (f : v.ty.Contents (Elt Ideal))
    {off : Fin 3 → ℕ} {o : ℕ} (heq : off = ![0, o, 0]) (inb : ∀ a, off a + S1x1024x1.size a ≤ S1x8192x1.size a)
    (r : Fin 1024) (p : Fin 8192) (hp : p.val = o + r.val) :
    View.readAt (Elt Ideal) v (Rect.unit (s := S1x8192x1) off S1x1024x1.size inb).toLoadRect f (ix3 (0 : Fin 1) r (0 : Fin 1))
      = v.read (Elt Ideal) f (ix3 (0 : Fin 1) p (0 : Fin 1)) := by
  subst heq
  rw [View.readAt_apply]
  refine congrArg (v.read (Elt Ideal) f) (funext fun a => Fin.ext ?_)
  match a with
  | ⟨0, _⟩ => show 0 + 1 * 0 = 0; omega
  | ⟨1, _⟩ => show o + 1 * r.val = p.val; omega
  | ⟨2, _⟩ => show 0 + 1 * 0 = 0; omega

theorem outA2_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : cond0 i) (x0 x1 : Vec Ideal S1x1024x3 .f32) (p : Fin 8192) :
    out0_A_2 (F := Ideal) c i arg3 harg3 arg4 harg4 arg5 harg5 arg6 harg6 hc0 x0 x1 (ix3 (0 : Fin 1) p (0 : Fin 1)) =
      if h : 1024 * (i 1).val ≤ p.val ∧ p.val < 1024 * (i 1).val + 1024 then
        min Chamfer.top (Finset.univ.fold min Chamfer.top fun cc : Fin 1024 => TileValue.tile x0 x1 ⟨p.val - 1024 * (i 1).val, by omega⟩ cc)
      else Chamfer.top := by
  unfold out0_A_2 kernelRun0_A
  dsimp only
  sl_unfold_run_names
  refine (read_slice_top VO0_2 VO0_2.junk (k0_off1_eq i) _ _ _ p).trans ?_
  by_cases h : 1024 * (i 1).val ≤ p.val ∧ p.val < 1024 * (i 1).val + 1024
  · rw [dif_pos h, dif_pos h]
    refine (TileValue.pay1_apply _ _).trans ?_
    refine (TileValue.pay7_apply _ _ _ _).trans ?_
    rw [load_block, load_block]
    refine congrArg₂ min ?_ rfl
    refine (load_slice arg5.view _ (k0_off1_eq i) _ _ p (by show p.val = 1024 * (i 1).val + (p.val - 1024 * (i 1).val); omega)).trans ?_
    exact (read_fill_top arg5.view _ _ _ [] _).trans (TileValue.pay3_apply _)
  · rw [dif_neg h, dif_neg h]
    exact (read_fill_top VO0_2 _ _ _ [] _).trans (TileValue.pay3_apply _)

theorem outA3_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : cond0 i) (x0 x1 : Vec Ideal S1x1024x3 .f32) (p : Fin 8192) :
    out0_A_3 (F := Ideal) c i arg3 harg3 arg4 harg4 arg5 harg5 arg6 harg6 hc0 x0 x1 (ix3 (0 : Fin 1) p (0 : Fin 1)) =
      if h : 1024 * (i 2).val ≤ p.val ∧ p.val < 1024 * (i 2).val + 1024 then
        min Chamfer.top (Finset.univ.fold min Chamfer.top fun r : Fin 1024 => TileValue.tile x0 x1 r ⟨p.val - 1024 * (i 2).val, by omega⟩)
      else Chamfer.top := by
  unfold out0_A_3 kernelRun0_A
  dsimp only
  sl_unfold_run_names
  refine (read_slice_top VO0_3 VO0_3.junk (k0_off2_eq i) _ _ _ p).trans ?_
  by_cases h : 1024 * (i 2).val ≤ p.val ∧ p.val < 1024 * (i 2).val + 1024
  · rw [dif_pos h, dif_pos h]
    refine (TileValue.pay2_apply _ _ _).trans ?_
    refine congrArg₂ min ?_ ?_
    · refine (load_slice arg6.view _ (k0_off2_eq i) _ _ p (by show p.val = 1024 * (i 2).val + (p.val - 1024 * (i 2).val); omega)).trans ?_
      exact (read_fill_top arg6.view _ _ _ [] _).trans (TileValue.pay4_apply _)
    · refine (TileValue.pay6_apply _ _ _).trans ?_
      rw [load_block, load_block]
  · rw [dif_neg h, dif_neg h]
    exact (read_fill_top VO0_3 _ _ _ [] _).trans (TileValue.pay4_apply _)

theorem outB2_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : ¬cond0 i) (x0 x1 : Vec Ideal S1x1024x3 .f32) (xo2 xo3 : Vec Ideal S1x8192x1 .f32) (p : Fin 8192) :
    out0_B_2 (F := Ideal) c i arg3 harg3 arg4 harg4 arg5 harg5 arg6 harg6 hc0 x0 x1 xo2 xo3 (ix3 (0 : Fin 1) p (0 : Fin 1)) =
      if h : 1024 * (i 1).val ≤ p.val ∧ p.val < 1024 * (i 1).val + 1024 then
        min (xo2 (ix3 (0 : Fin 1) p (0 : Fin 1))) (Finset.univ.fold min Chamfer.top fun cc : Fin 1024 => TileValue.tile x0 x1 ⟨p.val - 1024 * (i 1).val, by omega⟩ cc)
      else xo2 (ix3 (0 : Fin 1) p (0 : Fin 1)) := by
  unfold out0_B_2 kernelRun0_B
  dsimp only
  sl_unfold_run_names
  refine (read_slice_top arg5.view (harg5.unread xo2) (k0_off1_eq i) _ _ [] p).trans ?_
  by_cases h : 1024 * (i 1).val ≤ p.val ∧ p.val < 1024 * (i 1).val + 1024
  · rw [dif_pos h, dif_pos h]
    refine (TileValue.pay1_apply _ _).trans ?_
    refine (TileValue.pay7_apply _ _ _ _).trans ?_
    rw [load_block, load_block]
    refine congrArg₂ min ?_ rfl
    refine (load_slice arg5.view (harg5.unread xo2) (k0_off1_eq i) _ _ p (by show p.val = 1024 * (i 1).val + (p.val - 1024 * (i 1).val); omega)).trans ?_
    exact congrFun (harg5.read_unread xo2) _
  · rw [dif_neg h, dif_neg h]
    exact congrFun (harg5.read_unread xo2) _

theorem outB3_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x8192x1 .f32) (harg5 : arg5.IsWhole) (arg6 : Memref sig .tc .vmem S1x8192x1 .f32) (harg6 : arg6.IsWhole) (hc0 : ¬cond0 i) (x0 x1 : Vec Ideal S1x1024x3 .f32) (xo2 xo3 : Vec Ideal S1x8192x1 .f32) (p : Fin 8192) :
    out0_B_3 (F := Ideal) c i arg3 harg3 arg4 harg4 arg5 harg5 arg6 harg6 hc0 x0 x1 xo2 xo3 (ix3 (0 : Fin 1) p (0 : Fin 1)) =
      if h : 1024 * (i 2).val ≤ p.val ∧ p.val < 1024 * (i 2).val + 1024 then
        min (xo3 (ix3 (0 : Fin 1) p (0 : Fin 1))) (Finset.univ.fold min Chamfer.top fun r : Fin 1024 => TileValue.tile x0 x1 r ⟨p.val - 1024 * (i 2).val, by omega⟩)
      else xo3 (ix3 (0 : Fin 1) p (0 : Fin 1)) := by
  unfold out0_B_3 kernelRun0_B
  dsimp only
  sl_unfold_run_names
  refine (read_slice_top arg6.view (harg6.unread xo3) (k0_off2_eq i) _ _ [] p).trans ?_
  by_cases h : 1024 * (i 2).val ≤ p.val ∧ p.val < 1024 * (i 2).val + 1024
  · rw [dif_pos h, dif_pos h]
    refine (TileValue.pay2_apply _ _ _).trans ?_
    refine congrArg₂ min ?_ ?_
    · refine (load_slice arg6.view (harg6.unread xo3) (k0_off2_eq i) _ _ p (by show p.val = 1024 * (i 2).val + (p.val - 1024 * (i 2).val); omega)).trans ?_
      exact congrFun (harg6.read_unread xo3) _
    · refine (TileValue.pay6_apply _ _ _).trans ?_
      rw [load_block, load_block]
  · rw [dif_neg h, dif_neg h]
    exact congrFun (harg6.read_unread xo3) _

end Cert.KernelIdeal.KV

end
-- ==== Proof.Sweep.lean ====
/-
  How the partial folds of the sweep grow. Step `s` of a batch meets tile (row tile `s / 8`, column tile
  `s % 8`). A point of the first cloud in that row tile takes, besides what it had, the minimum of its
  distances to the 1024 points of that column tile; a point of the first cloud elsewhere takes nothing.
  A point of the second cloud in that column tile takes the minimum of its distances to the 1024 points
  of that row tile; elsewhere nothing. At step 0 what a point "had" is +∞. Each equation is the
  characteristic property of a fold of `min` (a lower bound of the fold is a lower bound of the start and
  of every term) applied to the two index sets, which differ by exactly one tile.
-/
import proofs.«149767_j65481071394839_1_alg».proof.Proof.Spec

set_option maxRecDepth 16384

noncomputable section

open scoped BigOperators

namespace Chamfer

open Idealize.ShloMosaic Idealize.ShloMosaic.ValueIdx

variable (x y : Pts.Idx → EReal) (b : Fin 4)

/-- The minimum of the distances from point `n` of the first cloud to the 1024 points of column tile `k`. -/
def rowTileMin (n : Fin 8192) (k : ℕ) (hk : k < 8) : EReal :=
  Finset.univ.fold min top fun c : Fin 1024 => d x y b n ⟨1024 * k + c.val, by have := c.isLt; omega⟩

/-- The minimum of the distances from the 1024 points of row tile `j` to point `m` of the second cloud. -/
def colTileMin (m : Fin 8192) (j : ℕ) (hj : j < 8) : EReal :=
  Finset.univ.fold min top fun r : Fin 1024 => d x y b ⟨1024 * j + r.val, by have := r.isLt; omega⟩ m

/-- A fold of min over a set that is a smaller set together with the image of one tile of 1024 points
splits as the minimum of the fold over the smaller set and the fold over the tile: both sides have the same
lower bounds. -/
private theorem fold_min_split {ι : Type} (S S' : Finset ι) (f : ι → EReal) (g : Fin 1024 → EReal)
    (hsub : ∀ i ∈ S', i ∈ S) (hin : ∀ c : Fin 1024, ∃ i ∈ S, f i = g c)
    (hcov : ∀ i ∈ S, i ∈ S' ∨ ∃ c : Fin 1024, f i = g c) :
    S.fold min top f = min (S'.fold min top f) (Finset.univ.fold min top g) := by
  refine eq_of_lower fun c => ?_
  rw [le_min_iff, le_foldmin_iff, le_foldmin_iff, le_foldmin_iff]
  constructor
  · rintro ⟨ht, h⟩
    refine ⟨⟨ht, fun i hi => h i (hsub i hi)⟩, ht, fun k _ => ?_⟩
    obtain ⟨i, hi, e⟩ := hin k
    exact le_of_le_of_eq (h i hi) e
  · rintro ⟨⟨ht, h1⟩, _, h2⟩
    refine ⟨ht, fun i hi => ?_⟩
    rcases hcov i hi with hi' | ⟨k, e⟩
    · exact h1 i hi'
    · exact le_of_le_of_eq (h2 k (Finset.mem_univ _)) e.symm

theorem seen1_zero_in (n : Fin 8192) (hn : n.val < 1024) :
    seen1 x y b 0 n = min top (rowTileMin x y b n 0 (by omega)) := by
  unfold seen1 rowTileMin
  refine (fold_min_split _ ∅ _ _ (fun i hi => absurd hi (Finset.notMem_empty i)) (fun c => ?_) (fun m hm => ?_)).trans
    (by rw [Finset.fold_empty])
  · refine ⟨⟨1024 * 0 + c.val, by have := c.isLt; omega⟩, ?_, rfl⟩
    refine Finset.mem_filter.2 ⟨Finset.mem_univ _, ?_⟩
    show 8 * (n.val / 1024) + (1024 * 0 + c.val) / 1024 ≤ 0
    have := c.isLt; omega
  · obtain ⟨-, hm⟩ := Finset.mem_filter.1 hm
    have hm' : 8 * (n.val / 1024) + m.val / 1024 ≤ 0 := hm
    refine Or.inr ⟨⟨m.val - 1024 * 0, by omega⟩, ?_⟩
    exact congrArg (d x y b n) (Fin.ext (by show m.val = 1024 * 0 + (m.val - 1024 * 0); omega))

theorem seen1_zero_out (n : Fin 8192) (hn : 1024 ≤ n.val) : seen1 x y b 0 n = top := by
  unfold seen1
  rw [Finset.filter_false_of_mem fun m _ => by have := m.isLt; omega, Finset.fold_empty]

theorem seen1_step_in (s : ℕ) (hs : 0 < s) (hs' : s < 64) (n : Fin 8192) (hn : n.val / 1024 = s / 8) :
    seen1 x y b s n = min (seen1 x y b (s - 1) n) (rowTileMin x y b n (s % 8) (Nat.mod_lt _ (by omega))) := by
  unfold seen1 rowTileMin
  refine fold_min_split _ _ _ _ (fun m hm => ?_) (fun c => ?_) (fun m hm => ?_)
  · obtain ⟨-, hm⟩ := Finset.mem_filter.1 hm
    have hm' : 8 * (n.val / 1024) + m.val / 1024 ≤ s - 1 := hm
    exact Finset.mem_filter.2 ⟨Finset.mem_univ _, show 8 * (n.val / 1024) + m.val / 1024 ≤ s by omega⟩
  · refine ⟨⟨1024 * (s % 8) + c.val, by have := c.isLt; omega⟩, ?_, rfl⟩
    refine Finset.mem_filter.2 ⟨Finset.mem_univ _, ?_⟩
    show 8 * (n.val / 1024) + (1024 * (s % 8) + c.val) / 1024 ≤ s
    have := c.isLt; omega
  · obtain ⟨-, hm⟩ := Finset.mem_filter.1 hm
    have hm' : 8 * (n.val / 1024) + m.val / 1024 ≤ s := hm
    by_cases hlt : 8 * (n.val / 1024) + m.val / 1024 ≤ s - 1
    · exact Or.inl (Finset.mem_filter.2 ⟨Finset.mem_univ _, hlt⟩)
    · refine Or.inr ⟨⟨m.val - 1024 * (s % 8), by have := m.isLt; omega⟩, ?_⟩
      exact congrArg (d x y b n) (Fin.ext (by show m.val = 1024 * (s % 8) + (m.val - 1024 * (s % 8)); omega))

theorem seen1_step_out (s : ℕ) (hs : 0 < s) (n : Fin 8192) (hn : n.val / 1024 ≠ s / 8) :
    seen1 x y b s n = seen1 x y b (s - 1) n := by
  unfold seen1
  rw [Finset.filter_congr fun m _ => show 8 * (n.val / 1024) + m.val / 1024 ≤ s ↔ 8 * (n.val / 1024) + m.val / 1024 ≤ s - 1 by
    have := m.isLt; omega]

theorem seen2_zero_in (m : Fin 8192) (hm : m.val < 1024) :
    seen2 x y b 0 m = min top (colTileMin x y b m 0 (by omega)) := by
  unfold seen2 colTileMin
  refine (fold_min_split _ ∅ _ _ (fun i hi => absurd hi (Finset.notMem_empty i)) (fun r => ?_) (fun n hn => ?_)).trans
    (by rw [Finset.fold_empty])
  · refine ⟨⟨1024 * 0 + r.val, by have := r.isLt; omega⟩, ?_, rfl⟩
    refine Finset.mem_filter.2 ⟨Finset.mem_univ _, ?_⟩
    show 8 * ((1024 * 0 + r.val) / 1024) + m.val / 1024 ≤ 0
    have := r.isLt; omega
  · obtain ⟨-, hn⟩ := Finset.mem_filter.1 hn
    have hn' : 8 * (n.val / 1024) + m.val / 1024 ≤ 0 := hn
    refine Or.inr ⟨⟨n.val - 1024 * 0, by omega⟩, ?_⟩
    exact congrArg (fun z => d x y b z m) (Fin.ext (by show n.val = 1024 * 0 + (n.val - 1024 * 0); omega))

theorem seen2_zero_out (m : Fin 8192) (hm : 1024 ≤ m.val) : seen2 x y b 0 m = top := by
  unfold seen2
  rw [Finset.filter_false_of_mem fun n _ => by omega, Finset.fold_empty]

theorem seen2_step_in (s : ℕ) (hs : 0 < s) (hs' : s < 64) (m : Fin 8192) (hm : m.val / 1024 = s % 8) :
    seen2 x y b s m = min (seen2 x y b (s - 1) m) (colTileMin x y b m (s / 8) (by omega)) := by
  unfold seen2 colTileMin
  refine fold_min_split _ _ _ _ (fun n hn => ?_) (fun r => ?_) (fun n hn => ?_)
  · obtain ⟨-, hn⟩ := Finset.mem_filter.1 hn
    have hn' : 8 * (n.val / 1024) + m.val / 1024 ≤ s - 1 := hn
    exact Finset.mem_filter.2 ⟨Finset.mem_univ _, show 8 * (n.val / 1024) + m.val / 1024 ≤ s by omega⟩
  · refine ⟨⟨1024 * (s / 8) + r.val, by have := r.isLt; omega⟩, ?_, rfl⟩
    refine Finset.mem_filter.2 ⟨Finset.mem_univ _, ?_⟩
    show 8 * ((1024 * (s / 8) + r.val) / 1024) + m.val / 1024 ≤ s
    have := r.isLt; omega
  · obtain ⟨-, hn⟩ := Finset.mem_filter.1 hn
    have hn' : 8 * (n.val / 1024) + m.val / 1024 ≤ s := hn
    by_cases hlt : 8 * (n.val / 1024) + m.val / 1024 ≤ s - 1
    · exact Or.inl (Finset.mem_filter.2 ⟨Finset.mem_univ _, hlt⟩)
    · refine Or.inr ⟨⟨n.val - 1024 * (s / 8), by have := n.isLt; omega⟩, ?_⟩
      exact congrArg (fun z => d x y b z m) (Fin.ext (by show n.val = 1024 * (s / 8) + (n.val - 1024 * (s / 8)); omega))

theorem seen2_step_out (s : ℕ) (hs : 0 < s) (m : Fin 8192) (hm : m.val / 1024 ≠ s % 8) :
    seen2 x y b s m = seen2 x y b (s - 1) m := by
  unfold seen2
  rw [Finset.filter_congr fun n _ => show 8 * (n.val / 1024) + m.val / 1024 ≤ s ↔ 8 * (n.val / 1024) + m.val / 1024 ≤ s - 1 by
    have := m.isLt; omega]

end Chamfer

end
-- ==== Proof.KBlocks.lean ====
/-
  The two blocks of points a step loads are slices of the argument arrays: at step `t` the batch is
  `t / 64`, the first block holds points 1024·(t / 8 mod 8) … of the first cloud and the second block
  points 1024·(t mod 8) … of the second. So the tile entry computed from the blocks is the
  specification's clamped squared distance between those two points, and a tile minimum along a row or
  a column is the specification's minimum over one tile.
-/
import proofs.«149767_j65481071394839_1_alg».proof.Proof.FrameKI.Frame
import proofs.«149767_j65481071394839_1_alg».proof.Proof.TileValue
import proofs.«149767_j65481071394839_1_alg».proof.Proof.Sweep
import Idealize.ShloMosaic.Lib.Pipeline.Value

set_option maxRecDepth 16384

noncomputable section

namespace Cert.KernelIdeal.KV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (m : (ℓ : Loc nD τ sig) → Buf (Elt Ideal) ℓ)

theorem t_lt (t : Fin cfg0.N) : t.val < 256 := lt_of_lt_of_eq t.isLt N_0

/-- The batch of step `t`. -/
def batchOf (t : Fin cfg0.N) : Fin 4 := ⟨t.val / 64, by have := t_lt t; omega⟩
/-- Point `r` of the step's first block, as a point of the first cloud. -/
def rowPt (t : Fin cfg0.N) (r : Fin 1024) : Fin 8192 := ⟨1024 * (t.val / 8 % 8) + r.val, by have := r.isLt; omega⟩
/-- Point `cc` of the step's second block, as a point of the second cloud. -/
def colPt (t : Fin cfg0.N) (cc : Fin 1024) : Fin 8192 := ⟨1024 * (t.val % 8) + cc.val, by have := cc.isLt; omega⟩

/-- The two index maps, decided over the 256 steps: the batch is the step's first grid coordinate, the
first cloud's block follows the second coordinate and the second cloud's block the third. -/
private theorem idx_facts : ∀ t : Fin cfg0.N, win0_0.index t (0 : Fin 3) = t.val / 64
    ∧ win0_0.index t (1 : Fin 3) = t.val / 8 % 8 ∧ win0_0.index t (2 : Fin 3) = 0
    ∧ win0_1.index t (0 : Fin 3) = t.val / 64 ∧ win0_1.index t (1 : Fin 3) = t.val % 8
    ∧ win0_1.index t (2 : Fin 3) = 0 :=
  (by decide +kernel : ∀ t : Fin grid0.N, _)

/-- Where the first block's index (0, r, k) lies in the first cloud's array: on each axis the block's
index times the block's size plus the coordinate inside the block. -/
private theorem emb0 (t : Fin cfg0.N) (r : Fin 1024) (k : Fin 3) :
    ((cfg0.win 0).blk t).view.emb (ix3 (0 : Fin 1) r k) = ix3 (batchOf t) (rowPt t r) k := by
  obtain ⟨e0, e1, e2, -, -, -⟩ := idx_facts t
  funext a; apply Fin.ext
  match a with
  | ⟨0, _⟩ => show win0_0.index t (0 : Fin 3) * 1 + 1 * 0 = t.val / 64; omega
  | ⟨1, _⟩ => show win0_0.index t (1 : Fin 3) * 1024 + 1 * r.val = 1024 * (t.val / 8 % 8) + r.val; omega
  | ⟨2, _⟩ => show win0_0.index t (2 : Fin 3) * 3 + 1 * k.val = k.val; omega

/-- The same for the second block in the second cloud's array. -/
private theorem emb1 (t : Fin cfg0.N) (cc : Fin 1024) (k : Fin 3) :
    ((cfg0.win 1).blk t).view.emb (ix3 (0 : Fin 1) cc k) = ix3 (batchOf t) (colPt t cc) k := by
  obtain ⟨-, -, -, e0, e1, e2⟩ := idx_facts t
  funext a; apply Fin.ext
  match a with
  | ⟨0, _⟩ => show win0_1.index t (0 : Fin 3) * 1 + 1 * 0 = t.val / 64; omega
  | ⟨1, _⟩ => show win0_1.index t (1 : Fin 3) * 1024 + 1 * cc.val = 1024 * (t.val % 8) + cc.val; omega
  | ⟨2, _⟩ => show win0_1.index t (2 : Fin 3) * 3 + 1 * k.val = k.val; omega

/-- The first block read at a point and coordinate. -/
theorem iblk0_apply (c : Dev nD) (t : Fin cfg0.N) (r : Fin 1024) (k : Fin 3) :
    (iblk (F := Ideal) m c 0 t : Vec Ideal S1x1024x3 .f32) (ix3 (0 : Fin 1) r k)
      = (V m c main_arg0 : Vec Ideal S4x8192x3 .f32) (ix3 (batchOf t) (rowPt t r) k) := by
  show (V m c main_arg0 : Vec Ideal S4x8192x3 .f32) (((cfg0.win 0).blk t).view.emb (ix3 (0 : Fin 1) r k)) = _
  rw [emb0]

/-- The second block read at a point and coordinate. -/
theorem iblk1_apply (c : Dev nD) (t : Fin cfg0.N) (cc : Fin 1024) (k : Fin 3) :
    (iblk (F := Ideal) m c 1 t : Vec Ideal S1x1024x3 .f32) (ix3 (0 : Fin 1) cc k)
      = (V m c main_arg1 : Vec Ideal S4x8192x3 .f32) (ix3 (batchOf t) (colPt t cc) k) := by
  show (V m c main_arg1 : Vec Ideal S4x8192x3 .f32) (((cfg0.win 1).blk t).view.emb (ix3 (0 : Fin 1) cc k)) = _
  rw [emb1]

/-- The tile over the step's blocks is the specification's distance. -/
theorem tile_blocks (c : Dev nD) (t : Fin cfg0.N) (r cc : Fin 1024) :
    TileValue.tile (iblk (F := Ideal) m c 0 t) (iblk (F := Ideal) m c 1 t) r cc
      = Chamfer.d (V m c main_arg0) (V m c main_arg1) (batchOf t) (rowPt t r) (colPt t cc) := by
  unfold TileValue.tile Chamfer.d Chamfer.sq Chamfer.inner
  simp only [iblk0_apply, iblk1_apply]

/-- A tile minimum along the row of point `r`: the specification's minimum over the step's column tile. -/
theorem rowMin_blocks (c : Dev nD) (t : Fin cfg0.N) (r : Fin 1024) :
    (Finset.univ.fold min Chamfer.top fun cc : Fin 1024 => TileValue.tile (iblk (F := Ideal) m c 0 t) (iblk (F := Ideal) m c 1 t) r cc)
      = Chamfer.rowTileMin (V m c main_arg0) (V m c main_arg1) (batchOf t) (rowPt t r) (t.val % 8) (Nat.mod_lt _ (by omega)) := by
  unfold Chamfer.rowTileMin
  exact congrArg (fun f => Finset.univ.fold min Chamfer.top f) (funext fun cc => tile_blocks m c t r cc)

/-- A tile minimum along the column of point `cc`: the specification's minimum over the step's row tile. -/
theorem colMin_blocks (c : Dev nD) (t : Fin cfg0.N) (cc : Fin 1024) :
    (Finset.univ.fold min Chamfer.top fun r : Fin 1024 => TileValue.tile (iblk (F := Ideal) m c 0 t) (iblk (F := Ideal) m c 1 t) r cc)
      = Chamfer.colTileMin (V m c main_arg0) (V m c main_arg1) (batchOf t) (colPt t cc) (t.val / 8 % 8) (Nat.mod_lt _ (by omega)) := by
  unfold Chamfer.colTileMin
  exact congrArg (fun f => Finset.univ.fold min Chamfer.top f) (funext fun r => tile_blocks m c t r cc)

end Cert.KernelIdeal.KV

end
-- ==== Proof.KSweep.lean ====
/-
  The invariant of the sweep: after step `n` (batch `n / 64`, step `s = n mod 64` of the batch) the first
  result buffer holds at each point of the first cloud what that point has taken of its fold after `s`
  steps, and the second buffer the same for each point of the second cloud. By induction on the step:
  at the first step of a batch the buffers are filled with +∞ and the first tile is taken; at a later
  step the points of the step's row tile (resp. column tile) take one more tile minimum and every other
  point keeps what it had.
-/
import proofs.«149767_j65481071394839_1_alg».proof.Proof.KPieces
import proofs.«149767_j65481071394839_1_alg».proof.Proof.KBlocks

set_option maxRecDepth 16384

noncomputable section

namespace Cert.KernelIdeal.KV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (m : (ℓ : Loc nD τ sig) → Buf (Elt Ideal) ℓ)

/-- A point inside the step's row slice is the slice's point at its offset. -/
theorem rowPt_sub (t : Fin cfg0.N) (p : Fin 8192)
    (h : 1024 * ((grid0.coords t) 1).val ≤ p.val ∧ p.val < 1024 * ((grid0.coords t) 1).val + 1024) :
    rowPt t ⟨p.val - 1024 * ((grid0.coords t) 1).val, by omega⟩ = p :=
  Fin.ext (by have := coord1 t; simp only [rowPt]; omega)

/-- A point inside the step's column slice is the slice's point at its offset. -/
theorem colPt_sub (t : Fin cfg0.N) (p : Fin 8192)
    (h : 1024 * ((grid0.coords t) 2).val ≤ p.val ∧ p.val < 1024 * ((grid0.coords t) 2).val + 1024) :
    colPt t ⟨p.val - 1024 * ((grid0.coords t) 2).val, by omega⟩ = p :=
  Fin.ext (by have := coord2 t; simp only [colPt]; omega)

theorem rowTileMin_congr (x y : Chamfer.Pts.Idx → EReal) (b : Fin 4) (n : Fin 8192) {k k' : ℕ} (hk : k < 8) (hk' : k' < 8) (e : k = k') :
    Chamfer.rowTileMin x y b n k hk = Chamfer.rowTileMin x y b n k' hk' := by subst e; rfl

theorem colTileMin_congr (x y : Chamfer.Pts.Idx → EReal) (b : Fin 4) (n : Fin 8192) {k k' : ℕ} (hk : k < 8) (hk' : k' < 8) (e : k = k') :
    Chamfer.colTileMin x y b n k hk = Chamfer.colTileMin x y b n k' hk' := by subst e; rfl

/-- The row minimum the step takes for a point of its row slice. -/
theorem rowMin_at (c : Dev nD) (t : Fin cfg0.N) (p : Fin 8192)
    (h : 1024 * ((grid0.coords t) 1).val ≤ p.val ∧ p.val < 1024 * ((grid0.coords t) 1).val + 1024) :
    (Finset.univ.fold min Chamfer.top fun cc : Fin 1024 =>
        TileValue.tile (iblk (F := Ideal) m c 0 t) (iblk (F := Ideal) m c 1 t) ⟨p.val - 1024 * ((grid0.coords t) 1).val, by omega⟩ cc)
      = Chamfer.rowTileMin (V m c main_arg0) (V m c main_arg1) (batchOf t) p (t.val % 8) (Nat.mod_lt _ (by omega)) := by
  rw [rowMin_blocks, rowPt_sub t p h]

/-- The column minimum the step takes for a point of its column slice. -/
theorem colMin_at (c : Dev nD) (t : Fin cfg0.N) (p : Fin 8192)
    (h : 1024 * ((grid0.coords t) 2).val ≤ p.val ∧ p.val < 1024 * ((grid0.coords t) 2).val + 1024) :
    (Finset.univ.fold min Chamfer.top fun r : Fin 1024 =>
        TileValue.tile (iblk (F := Ideal) m c 0 t) (iblk (F := Ideal) m c 1 t) r ⟨p.val - 1024 * ((grid0.coords t) 2).val, by omega⟩)
      = Chamfer.colTileMin (V m c main_arg0) (V m c main_arg1) (batchOf t) p (t.val / 8 % 8) (Nat.mod_lt _ (by omega)) := by
  rw [colMin_blocks, colPt_sub t p h]

/-- The first step of a batch. -/
theorem inv_first (c : Dev nD) (t : Fin cfg0.N) (h0 : t.val % 64 = 0) (p : Fin 8192) :
    (outsAt0 (F := Ideal) m c t.val t.isLt).1 (ix3 (0 : Fin 1) p (0 : Fin 1))
        = Chamfer.seen1 (V m c main_arg0) (V m c main_arg1) (batchOf t) (t.val % 64) p
    ∧ (outsAt0 (F := Ideal) m c t.val t.isLt).2 (ix3 (0 : Fin 1) p (0 : Fin 1))
        = Chamfer.seen2 (V m c main_arg0) (V m c main_arg1) (batchOf t) (t.val % 64) p := by
  have hc1 := coord1 t
  have hc2 := coord2 t
  rw [outsAt0_A m c t h0]
  constructor
  · refine Eq.trans ?_ (congrArg (fun s => Chamfer.seen1 (V m c main_arg0) (V m c main_arg1) (batchOf t) s p) h0.symm)
    dsimp only
    rw [outA2_apply]
    split
    · rename_i h
      rw [rowMin_at m c t p h, Chamfer.seen1_zero_in _ _ _ p (by omega)]
      exact congrArg (min Chamfer.top) (rowTileMin_congr _ _ _ _ _ _ (by omega))
    · rename_i h
      rw [Chamfer.seen1_zero_out _ _ _ p (by omega)]
  · refine Eq.trans ?_ (congrArg (fun s => Chamfer.seen2 (V m c main_arg0) (V m c main_arg1) (batchOf t) s p) h0.symm)
    dsimp only
    rw [outA3_apply]
    split
    · rename_i h
      rw [colMin_at m c t p h, Chamfer.seen2_zero_in _ _ _ p (by omega)]
      exact congrArg (min Chamfer.top) (colTileMin_congr _ _ _ _ _ _ (by omega))
    · rename_i h
      rw [Chamfer.seen2_zero_out _ _ _ p (by omega)]

/-- A later step of a batch, given the invariant after the step before. -/
theorem inv_later (c : Dev nD) (t : Fin cfg0.N) (h0 : ¬t.val % 64 = 0)
    (hprev : ∀ q : Fin 8192,
      (outsAt0 (F := Ideal) m c (t.val - 1) (Nat.lt_of_le_of_lt (Nat.sub_le _ _) t.isLt)).1 (ix3 (0 : Fin 1) q (0 : Fin 1))
          = Chamfer.seen1 (V m c main_arg0) (V m c main_arg1) (batchOf t) (t.val % 64 - 1) q
      ∧ (outsAt0 (F := Ideal) m c (t.val - 1) (Nat.lt_of_le_of_lt (Nat.sub_le _ _) t.isLt)).2 (ix3 (0 : Fin 1) q (0 : Fin 1))
          = Chamfer.seen2 (V m c main_arg0) (V m c main_arg1) (batchOf t) (t.val % 64 - 1) q)
    (p : Fin 8192) :
    (outsAt0 (F := Ideal) m c t.val t.isLt).1 (ix3 (0 : Fin 1) p (0 : Fin 1))
        = Chamfer.seen1 (V m c main_arg0) (V m c main_arg1) (batchOf t) (t.val % 64) p
    ∧ (outsAt0 (F := Ideal) m c t.val t.isLt).2 (ix3 (0 : Fin 1) p (0 : Fin 1))
        = Chamfer.seen2 (V m c main_arg0) (V m c main_arg1) (batchOf t) (t.val % 64) p := by
  have hc1 := coord1 t
  have hc2 := coord2 t
  have ht := t_lt t
  rw [outsAt0_B m c t h0]
  constructor
  · dsimp only
    rw [outB2_apply]
    split
    · rename_i h
      rw [rowMin_at m c t p h, (hprev p).1,
        Chamfer.seen1_step_in _ _ _ (t.val % 64) (by omega) (by omega) p (by omega)]
      exact congrArg (min _) (rowTileMin_congr _ _ _ _ _ _ (by omega))
    · rename_i h
      rw [(hprev p).1, Chamfer.seen1_step_out _ _ _ (t.val % 64) (by omega) p (by omega)]
  · dsimp only
    rw [outB3_apply]
    split
    · rename_i h
      rw [colMin_at m c t p h, (hprev p).2,
        Chamfer.seen2_step_in _ _ _ (t.val % 64) (by omega) (by omega) p (by omega)]
      exact congrArg (min _) (colTileMin_congr _ _ _ _ _ _ (by omega))
    · rename_i h
      rw [(hprev p).2, Chamfer.seen2_step_out _ _ _ (t.val % 64) (by omega) p (by omega)]

theorem outs_inv (c : Dev nD) (n : ℕ) (hn : n < cfg0.N) (p : Fin 8192) :
    (outsAt0 (F := Ideal) m c n hn).1 (ix3 (0 : Fin 1) p (0 : Fin 1))
        = Chamfer.seen1 (V m c main_arg0) (V m c main_arg1) (batchOf ⟨n, hn⟩) (n % 64) p
    ∧ (outsAt0 (F := Ideal) m c n hn).2 (ix3 (0 : Fin 1) p (0 : Fin 1))
        = Chamfer.seen2 (V m c main_arg0) (V m c main_arg1) (batchOf ⟨n, hn⟩) (n % 64) p := by
  induction n generalizing p with
  | zero => exact inv_first m c ⟨0, hn⟩ rfl p
  | succ k ih =>
    by_cases h0 : (k + 1) % 64 = 0
    · exact inv_first m c ⟨k + 1, hn⟩ h0 p
    · refine inv_later m c ⟨k + 1, hn⟩ h0 (fun q => ?_) p
      have hb : batchOf ⟨k, Nat.lt_of_succ_lt hn⟩ = batchOf ⟨k + 1, hn⟩ :=
        Fin.ext (by simp only [batchOf]; omega)
      have hs : k % 64 = (k + 1) % 64 - 1 := by omega
      have := ih (Nat.lt_of_succ_lt hn) q
      rw [hb, hs] at this
      exact this

end Cert.KernelIdeal.KV

end
-- ==== Proof.RefTail.lean ====
/-
  After the two arrays of least distances both programs run the same host operations: the mean of
  the square roots of each array, averaged; the sum of the two plain means; and the F1 score of the
  two fractions of points nearer than the threshold, with its division guarded against a zero
  denominator by two selects. They are named here once, as three functions of the two arrays, at any
  reading of the floats, so that no later argument opens them.
-/
import proofs.«149767_j65481071394839_1_alg».proof.Proof.Gen.ReferenceIdeal

noncomputable section

namespace Cert.ReferenceIdeal.Tail

open Cert.ReferenceIdeal Cert.ReferenceIdeal.Gen Idealize.ShloMosaic Idealize.ShloMosaic.TcCoe Idealize.SL.Sem Idealize.ShloMosaic.StableHlo

variable {F : FTy → Type} [FloatOps F]

/-- Half the sum of the two means of square roots. -/
def meanRoot (d1 d2 : (⟨S4x8192, .f32⟩ : BufTy).Contents (Elt F)) : (⟨S4, .f32⟩ : BufTy).Contents (Elt F) :=
  Host.divf (addf (Host.divf (Host.reduceAdd (Host.sqrt d1) (constant S_ .f32 0x00000000#32) reducesTo_S4x8192_S4_d1 h_S_) (broadcastInDim S4 ![] bcast_S_S4 (constant S_ .f32 0x46000000#32))) (Host.divf (Host.reduceAdd (Host.sqrt d2) (constant S_ .f32 0x00000000#32) reducesTo_S4x8192_S4_d1 h_S_) (broadcastInDim S4 ![] bcast_S_S4 (constant S_ .f32 0x46000000#32)))) (broadcastInDim S4 ![] bcast_S_S4 (constant S_ .f32 0x40000000#32))

/-- The sum of the two means. -/
def meanSum (d1 d2 : (⟨S4x8192, .f32⟩ : BufTy).Contents (Elt F)) : (⟨S4, .f32⟩ : BufTy).Contents (Elt F) :=
  addf (Host.divf (Host.reduceAdd d1 (constant S_ .f32 0x00000000#32) reducesTo_S4x8192_S4_d1 h_S_) (broadcastInDim S4 ![] bcast_S_S4 (constant S_ .f32 0x46000000#32))) (Host.divf (Host.reduceAdd d2 (constant S_ .f32 0x00000000#32) reducesTo_S4x8192_S4_d1 h_S_) (broadcastInDim S4 ![] bcast_S_S4 (constant S_ .f32 0x46000000#32)))

/-- The F1 score of the two fractions below the threshold, zero where both fractions vanish. -/
def score (d1 d2 : (⟨S4x8192, .f32⟩ : BufTy).Contents (Elt F)) : (⟨S4, .f32⟩ : BufTy).Contents (Elt F) :=
  select (cmpf (F := F) .ogt (addf (Host.divf (Host.reduceAdd (uitofp (F := F) .f32 (cmpf (F := F) .olt d1 (broadcastInDim S4x8192 ![] bcast_S_S4x8192 (constant S_ .f32 0x38D1B717#32)))) (constant S_ .f32 0x00000000#32) reducesTo_S4x8192_S4_d1 h_S_) (broadcastInDim S4 ![] bcast_S_S4 (constant S_ .f32 0x46000000#32))) (Host.divf (Host.reduceAdd (uitofp (F := F) .f32 (cmpf (F := F) .olt d2 (broadcastInDim S4x8192 ![] bcast_S_S4x8192 (constant S_ .f32 0x38D1B717#32)))) (constant S_ .f32 0x00000000#32) reducesTo_S4x8192_S4_d1 h_S_) (broadcastInDim S4 ![] bcast_S_S4 (constant S_ .f32 0x46000000#32)))) (broadcastInDim S4 ![] bcast_S_S4 (constant S_ .f32 0x00000000#32))) (Host.divf (mulf (mulf (broadcastInDim S4 ![] bcast_S_S4 (constant S_ .f32 0x40000000#32)) (Host.divf (Host.reduceAdd (uitofp (F := F) .f32 (cmpf (F := F) .olt d1 (broadcastInDim S4x8192 ![] bcast_S_S4x8192 (constant S_ .f32 0x38D1B717#32)))) (constant S_ .f32 0x00000000#32) reducesTo_S4x8192_S4_d1 h_S_) (broadcastInDim S4 ![] bcast_S_S4 (constant S_ .f32 0x46000000#32)))) (Host.divf (Host.reduceAdd (uitofp (F := F) .f32 (cmpf (F := F) .olt d2 (broadcastInDim S4x8192 ![] bcast_S_S4x8192 (constant S_ .f32 0x38D1B717#32)))) (constant S_ .f32 0x00000000#32) reducesTo_S4x8192_S4_d1 h_S_) (broadcastInDim S4 ![] bcast_S_S4 (constant S_ .f32 0x46000000#32)))) (select (cmpf (F := F) .ogt (addf (Host.divf (Host.reduceAdd (uitofp (F := F) .f32 (cmpf (F := F) .olt d1 (broadcastInDim S4x8192 ![] bcast_S_S4x8192 (constant S_ .f32 0x38D1B717#32)))) (constant S_ .f32 0x00000000#32) reducesTo_S4x8192_S4_d1 h_S_) (broadcastInDim S4 ![] bcast_S_S4 (constant S_ .f32 0x46000000#32))) (Host.divf (Host.reduceAdd (uitofp (F := F) .f32 (cmpf (F := F) .olt d2 (broadcastInDim S4x8192 ![] bcast_S_S4x8192 (constant S_ .f32 0x38D1B717#32)))) (constant S_ .f32 0x00000000#32) reducesTo_S4x8192_S4_d1 h_S_) (broadcastInDim S4 ![] bcast_S_S4 (constant S_ .f32 0x46000000#32)))) (broadcastInDim S4 ![] bcast_S_S4 (constant S_ .f32 0x00000000#32))) (addf (Host.divf (Host.reduceAdd (uitofp (F := F) .f32 (cmpf (F := F) .olt d1 (broadcastInDim S4x8192 ![] bcast_S_S4x8192 (constant S_ .f32 0x38D1B717#32)))) (constant S_ .f32 0x00000000#32) reducesTo_S4x8192_S4_d1 h_S_) (broadcastInDim S4 ![] bcast_S_S4 (constant S_ .f32 0x46000000#32))) (Host.divf (Host.reduceAdd (uitofp (F := F) .f32 (cmpf (F := F) .olt d2 (broadcastInDim S4x8192 ![] bcast_S_S4x8192 (constant S_ .f32 0x38D1B717#32)))) (constant S_ .f32 0x00000000#32) reducesTo_S4x8192_S4_d1 h_S_) (broadcastInDim S4 ![] bcast_S_S4 (constant S_ .f32 0x46000000#32)))) (broadcastInDim S4 ![] bcast_S_S4 (id (constant S_ .f32 0x3F800000#32))))) (broadcastInDim S4 ![] bcast_S_S4 (id (constant S_ .f32 0x00000000#32)))

end Cert.ReferenceIdeal.Tail

end
-- ==== Proof.KTail.lean ====
/-
  The sixty-seven host operations after the region, read as functions of the two arrays the region
  wrote: each array loses its trailing unit axis, and the three results are the shared host tail of
  the two flattened arrays. Flattening reads entry (b, n) of the flat array at (b, n, 0) of the array.
-/
import proofs.«149767_j65481071394839_1_alg».proof.Proof.FrameKI.Tail
import proofs.«149767_j65481071394839_1_alg».proof.Proof.RefTail
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Fr

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]

/-- An array over batch × point × 1 read as one over batch × point. -/
def flat (a : Vec F S4x8192x1 .f32) : Vec F S4x8192 .f32 :=
  shapeCast S4x8192 a shapeCasts_S4x8192x1_S4x8192

theorem flat_apply (a : Vec F S4x8192x1 .f32) (b : Fin 4) (n : Fin 8192) :
    flat a (ix2 b n) = a (ix3 b n (0 : Fin 1)) := by
  unfold flat
  exact shapeCast_apply a shapeCasts_S4x8192x1_S4x8192 (ix2 b n) (ix3 b n (0 : Fin 1)) (by
    rw [Shape.rowMajor_val_three, Shape.rowMajor_val_two]
    show (b.val * 8192 + n.val) * 1 + 0 = b.val * 8192 + n.val
    omega)

/-- After the later operations, from any contents `W` of the device buffers: half the sum of the two means of roots, -/
theorem tail_v13 (W : Valuation τ sig (Elt F)) :
    StableHlo.after (List.flatten (tailOps (F := F))) W (Proc.devRef .tc main_v13)
      = Cert.ReferenceIdeal.Tail.meanRoot (F := F) (flat (W (Proc.devRef .tc main_v0_0))) (flat (W (Proc.devRef .tc main_v0_1))) := by
  simp only [tailOps, hostOps1, hostOps1_1, hostOps1_2, hostOps1_3, List.flatten_cons, List.flatten_nil, List.append_nil, List.cons_append, List.nil_append]
  after_results_simp
  unfold Cert.ReferenceIdeal.Tail.meanRoot flat
  rfl

/-- the sum of the two means, -/
theorem tail_v20 (W : Valuation τ sig (Elt F)) :
    StableHlo.after (List.flatten (tailOps (F := F))) W (Proc.devRef .tc main_v20)
      = Cert.ReferenceIdeal.Tail.meanSum (F := F) (flat (W (Proc.devRef .tc main_v0_0))) (flat (W (Proc.devRef .tc main_v0_1))) := by
  simp only [tailOps, hostOps1, hostOps1_1, hostOps1_2, hostOps1_3, List.flatten_cons, List.flatten_nil, List.append_nil, List.cons_append, List.nil_append]
  after_results_simp
  unfold Cert.ReferenceIdeal.Tail.meanSum flat
  rfl

/-- and the score. -/
theorem tail_v43 (W : Valuation τ sig (Elt F)) :
    StableHlo.after (List.flatten (tailOps (F := F))) W (Proc.devRef .tc main_v43)
      = Cert.ReferenceIdeal.Tail.score (F := F) (flat (W (Proc.devRef .tc main_v0_0))) (flat (W (Proc.devRef .tc main_v0_1))) := by
  simp only [tailOps, hostOps1, hostOps1_1, hostOps1_2, hostOps1_3, List.flatten_cons, List.flatten_nil, List.append_nil, List.cons_append, List.nil_append]
  after_results_simp
  unfold Cert.ReferenceIdeal.Tail.score flat
  rfl

/-- The three results are unscoped buffers that are no array of the region's windows. -/
theorem v13_rest : main_v13 ∈ Pipeline.restRefs sig spec0 := by
  refine Pipeline.mem_restRefs_of main_v13 rfl fun w => ?_
  fin_cases w <;> decide
theorem v20_rest : main_v20 ∈ Pipeline.restRefs sig spec0 := by
  refine Pipeline.mem_restRefs_of main_v20 rfl fun w => ?_
  fin_cases w <;> decide
theorem v43_rest : main_v43 ∈ Pipeline.restRefs sig spec0 := by
  refine Pipeline.mem_restRefs_of main_v43 rfl fun w => ?_
  fin_cases w <;> decide

end Cert.KernelIdeal.Fr

end
-- ==== Proof.KFinal.lean ====
/-
  The two arrays the region writes. Each result buffer is written back once per batch, after the
  batch's last step, as block (batch, 0, 0) of its array; by the sweep's invariant it then holds at
  every point the whole fold, the least distance. The four write-backs tile the array, so each array
  ends, at (b, n, 0), at the least distance of point `n` of batch `b`; flattened, the two arrays are
  the specification's.
-/
import proofs.«149767_j65481071394839_1_alg».proof.Proof.KSweep
import proofs.«149767_j65481071394839_1_alg».proof.Proof.KTail

set_option maxRecDepth 16384

noncomputable section

namespace Cert.KernelIdeal.KV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (m : (ℓ : Loc nD τ sig) → Buf (Elt Ideal) ℓ)

/-- The two result windows' index maps, decided over the 256 steps: block (batch, 0, 0). -/
private theorem idx_facts2 : ∀ t : Fin cfg0.N, win0_2.index t (0 : Fin 3) = t.val / 64
    ∧ win0_2.index t (1 : Fin 3) = 0 ∧ win0_2.index t (2 : Fin 3) = 0 :=
  (by decide +kernel : ∀ t : Fin grid0.N, _)
private theorem idx_facts3 : ∀ t : Fin cfg0.N, win0_3.index t (0 : Fin 3) = t.val / 64
    ∧ win0_3.index t (1 : Fin 3) = 0 ∧ win0_3.index t (2 : Fin 3) = 0 :=
  (by decide +kernel : ∀ t : Fin grid0.N, _)

/-- Where result block 2's index (0, p, 0) lies in its array at step `t`: at (batch of `t`, p, 0). -/
private theorem emb2 (t : Fin cfg0.N) (p : Fin 8192) :
    ((cfg0.win 2).blk t).view.emb (ix3 (0 : Fin 1) p (0 : Fin 1)) = ix3 (batchOf t) p (0 : Fin 1) := by
  obtain ⟨e0, e1, e2⟩ := idx_facts2 t
  funext a; apply Fin.ext
  match a with
  | ⟨0, _⟩ => show win0_2.index t (0 : Fin 3) * 1 + 1 * 0 = t.val / 64; omega
  | ⟨1, _⟩ => show win0_2.index t (1 : Fin 3) * 8192 + 1 * p.val = p.val; omega
  | ⟨2, _⟩ => show win0_2.index t (2 : Fin 3) * 1 + 1 * 0 = 0; omega

/-- What the last step of a batch writes back is that batch's block of the least distances. -/
private theorem flushed2_eq (c : Dev nD) (t : Fin cfg0.N) (hf : t.val % 64 = 63) :
    (dats (F := Ideal) m 0 c).flushed 2 t
      = ((cfg0.win 2).blk t).view.read (Elt Ideal)
          (fun i : S4x8192x1.Idx => Chamfer.near1 (V m c main_arg0) (V m c main_arg1) (i 0) (i 1)) := by
  show (cfg0.win 2).cut (grid0.coords t) ((dats m 0 c).after 2 t) = _
  rw [after0_2]
  funext j
  obtain ⟨u, p, v, rfl⟩ : ∃ (u : Fin 1) (p : Fin 8192) (v : Fin 1), j = ix3 u p v := ⟨j 0, j 1, j 2, eq_ix3 j⟩
  obtain rfl : u = 0 := Subsingleton.elim _ _
  obtain rfl : v = 0 := Subsingleton.elim _ _
  show (outsAt0 (F := Ideal) m c t.val t.isLt).1 (ix3 (0 : Fin 1) p (0 : Fin 1)) = _
  refine ((outs_inv m c t.val t.isLt p).1).trans ?_
  rw [hf, Chamfer.seen1_last, View.read_apply, emb2]
  rfl

/-- An index of the array is in step `t`'s block iff each coordinate is in the block's range on its axis. -/
private theorem mem_blk2 (t : Fin cfg0.N) (i : S4x8192x1.Idx) :
    i ∈ ((cfg0.win 2).blk t).view.set ↔ ∀ a : Fin 3, win0_2.index t a * S1x8192x1.size a ≤ (i a).val
      ∧ (i a).val < win0_2.index t a * S1x8192x1.size a + S1x8192x1.size a := by
  show i ∈ ((View.whole main_v0_0).slice (win0_2.rect t)).set ↔ _
  rw [View.set_slice_whole, Rect.mem_set_unit]
  exact Iff.rfl

/-- Every index (b, n, 0) lies in the block written back after the last step of batch `b`. -/
private theorem cover2 (i : S4x8192x1.Idx) :
    ∃ t : Fin cfg0.N, (cfg0.win 2).flush t = true ∧ i ∈ ((cfg0.win 2).blk t).view.set := by
  have h0 : (i 0).val < 4 := (i 0).isLt
  have h1 : (i 1).val < 8192 := (i 1).isLt
  have h2 : (i 2).val < 1 := (i 2).isLt
  let t : Fin cfg0.N := ⟨64 * (i 0).val + 63, lt_of_lt_of_eq (b := 256) (by omega) N_0.symm⟩
  have ht : t.val = 64 * (i 0).val + 63 := rfl
  obtain ⟨e0, e1, e2⟩ := idx_facts2 t
  refine ⟨t, (flush0_2 t).mpr (by rw [ht]; omega), ?_⟩
  rw [mem_blk2]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 8192 ≤ (i 1).val ∧ (i 1).val < win0_2.index t (1 : Fin 3) * 8192 + 8192
    omega
  | ⟨2, _⟩ =>
    show win0_2.index t (2 : Fin 3) * 1 ≤ (i 2).val ∧ (i 2).val < win0_2.index t (2 : Fin 3) * 1 + 1
    omega

/-- Where result block 3's index (0, p, 0) lies in its array at step `t`: at (batch of `t`, p, 0). -/
private theorem emb3 (t : Fin cfg0.N) (p : Fin 8192) :
    ((cfg0.win 3).blk t).view.emb (ix3 (0 : Fin 1) p (0 : Fin 1)) = ix3 (batchOf t) p (0 : Fin 1) := by
  obtain ⟨e0, e1, e2⟩ := idx_facts3 t
  funext a; apply Fin.ext
  match a with
  | ⟨0, _⟩ => show win0_3.index t (0 : Fin 3) * 1 + 1 * 0 = t.val / 64; omega
  | ⟨1, _⟩ => show win0_3.index t (1 : Fin 3) * 8192 + 1 * p.val = p.val; omega
  | ⟨2, _⟩ => show win0_3.index t (2 : Fin 3) * 1 + 1 * 0 = 0; omega

/-- What the last step of a batch writes back is that batch's block of the least distances. -/
private theorem flushed3_eq (c : Dev nD) (t : Fin cfg0.N) (hf : t.val % 64 = 63) :
    (dats (F := Ideal) m 0 c).flushed 3 t
      = ((cfg0.win 3).blk t).view.read (Elt Ideal)
          (fun i : S4x8192x1.Idx => Chamfer.near2 (V m c main_arg0) (V m c main_arg1) (i 0) (i 1)) := by
  show (cfg0.win 3).cut (grid0.coords t) ((dats m 0 c).after 3 t) = _
  rw [after0_3]
  funext j
  obtain ⟨u, p, v, rfl⟩ : ∃ (u : Fin 1) (p : Fin 8192) (v : Fin 1), j = ix3 u p v := ⟨j 0, j 1, j 2, eq_ix3 j⟩
  obtain rfl : u = 0 := Subsingleton.elim _ _
  obtain rfl : v = 0 := Subsingleton.elim _ _
  show (outsAt0 (F := Ideal) m c t.val t.isLt).2 (ix3 (0 : Fin 1) p (0 : Fin 1)) = _
  refine ((outs_inv m c t.val t.isLt p).2).trans ?_
  rw [hf, Chamfer.seen2_last, View.read_apply, emb3]
  rfl

/-- An index of the array is in step `t`'s block iff each coordinate is in the block's range on its axis. -/
private theorem mem_blk3 (t : Fin cfg0.N) (i : S4x8192x1.Idx) :
    i ∈ ((cfg0.win 3).blk t).view.set ↔ ∀ a : Fin 3, win0_3.index t a * S1x8192x1.size a ≤ (i a).val
      ∧ (i a).val < win0_3.index t a * S1x8192x1.size a + S1x8192x1.size a := by
  show i ∈ ((View.whole main_v0_1).slice (win0_3.rect t)).set ↔ _
  rw [View.set_slice_whole, Rect.mem_set_unit]
  exact Iff.rfl

/-- Every index (b, n, 0) lies in the block written back after the last step of batch `b`. -/
private theorem cover3 (i : S4x8192x1.Idx) :
    ∃ t : Fin cfg0.N, (cfg0.win 3).flush t = true ∧ i ∈ ((cfg0.win 3).blk t).view.set := by
  have h0 : (i 0).val < 4 := (i 0).isLt
  have h1 : (i 1).val < 8192 := (i 1).isLt
  have h2 : (i 2).val < 1 := (i 2).isLt
  let t : Fin cfg0.N := ⟨64 * (i 0).val + 63, lt_of_lt_of_eq (b := 256) (by omega) N_0.symm⟩
  have ht : t.val = 64 * (i 0).val + 63 := rfl
  obtain ⟨e0, e1, e2⟩ := idx_facts3 t
  refine ⟨t, (flush0_3 t).mpr (by rw [ht]; omega), ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 8192 ≤ (i 1).val ∧ (i 1).val < win0_3.index t (1 : Fin 3) * 8192 + 8192
    omega
  | ⟨2, _⟩ =>
    show win0_3.index t (2 : Fin 3) * 1 ≤ (i 2).val ∧ (i 2).val < win0_3.index t (2 : Fin 3) * 1 + 1
    omega

/-- The first array after the run. -/
theorem final2 (c : Dev nD) :
    (dats (F := Ideal) m 0 c).arrAt 2 cfg0.N
      = fun i : S4x8192x1.Idx => Chamfer.near1 (V m c main_arg0) (V m c main_arg1) (i 0) (i 1) := by
  exact (dats (F := Ideal) m 0 c).arrAt_eq_of_cover 2 _ (fun t hf => flushed2_eq m c t ((flush0_2 t).mp hf)) cover2

/-- The second array after the run. -/
theorem final3 (c : Dev nD) :
    (dats (F := Ideal) m 0 c).arrAt 3 cfg0.N
      = fun i : S4x8192x1.Idx => Chamfer.near2 (V m c main_arg0) (V m c main_arg1) (i 0) (i 1) := by
  exact (dats (F := Ideal) m 0 c).arrAt_eq_of_cover 3 _ (fun t hf => flushed3_eq m c t ((flush0_3 t).mp hf)) cover3

/-- Flattened, they are the specification's two arrays of the argument arrays. -/
theorem flat_final2 (c : Dev nD) :
    flat (F := Ideal) ((dats (F := Ideal) m 0 c).arrAt 2 cfg0.N)
      = Chamfer.dist1 (m ((c.tc : Thread nD τ).loc main_arg0)) (m ((c.tc : Thread nD τ).loc main_arg1)) := by
  funext i
  obtain ⟨b, n, rfl⟩ : ∃ (b : Fin 4) (n : Fin 8192), i = ix2 b n := ⟨i 0, i 1, eq_ix2 i⟩
  rw [flat_apply, final2]
  rfl

theorem flat_final3 (c : Dev nD) :
    flat (F := Ideal) ((dats (F := Ideal) m 0 c).arrAt 3 cfg0.N)
      = Chamfer.dist2 (m ((c.tc : Thread nD τ).loc main_arg0)) (m ((c.tc : Thread nD τ).loc main_arg1)) := by
  funext i
  obtain ⟨b, n, rfl⟩ : ∃ (b : Fin 4) (n : Fin 8192), i = ix2 b n := ⟨i 0, i 1, eq_ix2 i⟩
  rw [flat_apply, final3]
  rfl

end Cert.KernelIdeal.KV

end
-- ==== Proof.KRun.lean ====
/-
  The idealized kernel program's run, restated: its three results are the shared host tail applied to
  the specification's two arrays of least distances of the argument arrays, and the arguments end
  unchanged. The frame run leaves each result buffer at what the later host operations compute from
  the region's exit contents; those operations are the shared tail of the two flattened arrays the
  region wrote, and the flattened arrays are the specification's.
-/
import proofs.«149767_j65481071394839_1_alg».proof.Proof.KFinal

set_option maxRecDepth 16384

noncomputable section

namespace Cert.KernelIdeal.KV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (m : (ℓ : Loc nD τ sig) → Buf (Elt Ideal) ℓ) (ρ : Dev nD → PrngReg)

/-- The region's exit contents at the first result array. -/
theorem exit_v0_0 (c : Dev nD) :
    Pipeline.withArrays spec0 c (V0 m c) (fun w => (dats (F := Ideal) m 0 c).arrAt w cfg0.N) (Proc.devRef .tc main_v0_0)
      = (dats (F := Ideal) m 0 c).arrAt 2 cfg0.N :=
  Pipeline.withArrays_arr spec0 launch0.win.arr_inj c (V0 m c) (fun w => (dats (F := Ideal) m 0 c).arrAt w cfg0.N) 2

/-- And at the second. -/
theorem exit_v0_1 (c : Dev nD) :
    Pipeline.withArrays spec0 c (V0 m c) (fun w => (dats (F := Ideal) m 0 c).arrAt w cfg0.N) (Proc.devRef .tc main_v0_1)
      = (dats (F := Ideal) m 0 c).arrAt 3 cfg0.N :=
  Pipeline.withArrays_arr spec0 launch0.win.arr_inj c (V0 m c) (fun w => (dats (F := Ideal) m 0 c).arrAt w cfg0.N) 3

theorem after_v13 (c : Dev nD) :
    Pipeline.afterTail₀ cfgs (dats (F := Ideal) m) 0 (V0 m) tailOps c main_v13
      = Cert.ReferenceIdeal.Tail.meanRoot (F := Ideal)
          (Chamfer.dist1 (m ((c.tc : Thread nD τ).loc main_arg0)) (m ((c.tc : Thread nD τ).loc main_arg1)))
          (Chamfer.dist2 (m ((c.tc : Thread nD τ).loc main_arg0)) (m ((c.tc : Thread nD τ).loc main_arg1))) := by
  unfold Pipeline.afterTail₀
  refine (tail_v13 _).trans ?_
  rw [exit_v0_0, exit_v0_1, flat_final2, flat_final3]

theorem after_v20 (c : Dev nD) :
    Pipeline.afterTail₀ cfgs (dats (F := Ideal) m) 0 (V0 m) tailOps c main_v20
      = Cert.ReferenceIdeal.Tail.meanSum (F := Ideal)
          (Chamfer.dist1 (m ((c.tc : Thread nD τ).loc main_arg0)) (m ((c.tc : Thread nD τ).loc main_arg1)))
          (Chamfer.dist2 (m ((c.tc : Thread nD τ).loc main_arg0)) (m ((c.tc : Thread nD τ).loc main_arg1))) := by
  unfold Pipeline.afterTail₀
  refine (tail_v20 _).trans ?_
  rw [exit_v0_0, exit_v0_1, flat_final2, flat_final3]

theorem after_v43 (c : Dev nD) :
    Pipeline.afterTail₀ cfgs (dats (F := Ideal) m) 0 (V0 m) tailOps c main_v43
      = Cert.ReferenceIdeal.Tail.score (F := Ideal)
          (Chamfer.dist1 (m ((c.tc : Thread nD τ).loc main_arg0)) (m ((c.tc : Thread nD τ).loc main_arg1)))
          (Chamfer.dist2 (m ((c.tc : Thread nD τ).loc main_arg0)) (m ((c.tc : Thread nD τ).loc main_arg1))) := by
  unfold Pipeline.afterTail₀
  refine (tail_v43 _).trans ?_
  rw [exit_v0_0, exit_v0_1, flat_final2, flat_final3]

theorem kernel_run :
    θ_run (defs (F := Ideal)) (onTc (τ := τ) (main (F := Ideal))) ⟨m, fun _ => 0, ρ⟩ fun r => ∀ c : Dev nD,
      r.2.mem ((c.tc : Thread nD τ).loc main_v13)
          = Cert.ReferenceIdeal.Tail.meanRoot (F := Ideal)
              (Chamfer.dist1 (m ((c.tc : Thread nD τ).loc main_arg0)) (m ((c.tc : Thread nD τ).loc main_arg1)))
              (Chamfer.dist2 (m ((c.tc : Thread nD τ).loc main_arg0)) (m ((c.tc : Thread nD τ).loc main_arg1)))
      ∧ r.2.mem ((c.tc : Thread nD τ).loc main_v20)
          = Cert.ReferenceIdeal.Tail.meanSum (F := Ideal)
              (Chamfer.dist1 (m ((c.tc : Thread nD τ).loc main_arg0)) (m ((c.tc : Thread nD τ).loc main_arg1)))
              (Chamfer.dist2 (m ((c.tc : Thread nD τ).loc main_arg0)) (m ((c.tc : Thread nD τ).loc main_arg1)))
      ∧ r.2.mem ((c.tc : Thread nD τ).loc main_v43)
          = Cert.ReferenceIdeal.Tail.score (F := Ideal)
              (Chamfer.dist1 (m ((c.tc : Thread nD τ).loc main_arg0)) (m ((c.tc : Thread nD τ).loc main_arg1)))
              (Chamfer.dist2 (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v13 v13_rest).trans (after_v13 m c),
     ((h c).2 main_v20 v20_rest).trans (after_v20 m c),
     ((h c).2 main_v43 v43_rest).trans (after_v43 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.KV

end
-- ==== Proof.RefDist.lean ====
/-
  The reference's two arrays of least distances, as its operations compose them from the two
  argument arrays: squared norms by a sum over the coordinate axis, all inner products of a batch by
  one contraction, the expansion and the clamp over the whole 8192 × 8192 table, then a minimum over
  one axis of the table for each array.
-/
import proofs.«149767_j65481071394839_1_alg».proof.Proof.Gen.ReferenceIdeal

noncomputable section

namespace Cert.ReferenceIdeal.Tail

open Cert.ReferenceIdeal Cert.ReferenceIdeal.Gen Idealize.ShloMosaic Idealize.ShloMosaic.TcCoe Idealize.SL.Sem Idealize.ShloMosaic.StableHlo

variable {F : FTy → Type} [FloatOps F]

/-- The table of clamped squared distances, batch × first cloud × second cloud. -/
def table (a0 a1 : (⟨S4x8192x3, .f32⟩ : BufTy).Contents (Elt F)) : (⟨S4x8192x8192, .f32⟩ : BufTy).Contents (Elt F) :=
  maximumf (subf (addf (broadcastInDim S4x8192x8192 ![0, 1, 2] bcast_S4x8192x1_S4x8192x8192_0_1_2 (broadcastInDim S4x8192x1 ![0, 1] bcast_S4x8192_S4x8192x1_0_1 (Host.reduceAdd (mulf a0 a0) (constant S_ .f32 0x00000000#32) reducesTo_S4x8192x3_S4x8192_d2 h_S_))) (broadcastInDim S4x8192x8192 ![0, 1, 2] bcast_S4x1x8192_S4x8192x8192_0_1_2 (broadcastInDim S4x1x8192 ![0, 2] bcast_S4x8192_S4x1x8192_0_2 (Host.reduceAdd (mulf a1 a1) (constant S_ .f32 0x00000000#32) reducesTo_S4x8192x3_S4x8192_d2 h_S_)))) (mulf (broadcastInDim S4x8192x8192 ![] bcast_S_S4x8192x8192 (constant S_ .f32 0x40000000#32)) (Host.dotGeneral dot_S4x8192x3_S4x8192x3_S4x8192x8192_2_2_1_1_0_0 none a0 a1))) (broadcastInDim S4x8192x8192 ![] bcast_S_S4x8192x8192 (constant S_ .f32 0x00000000#32))

/-- Its minimum over the second cloud. -/
def refDist1 (a0 a1 : (⟨S4x8192x3, .f32⟩ : BufTy).Contents (Elt F)) : (⟨S4x8192, .f32⟩ : BufTy).Contents (Elt F) :=
  Host.reduce FloatOps.minimumf (table a0 a1) (constant S_ .f32 0x7F800000#32) reducesTo_S4x8192x8192_S4x8192_d2 h_S_

/-- Its minimum over the first cloud. -/
def refDist2 (a0 a1 : (⟨S4x8192x3, .f32⟩ : BufTy).Contents (Elt F)) : (⟨S4x8192, .f32⟩ : BufTy).Contents (Elt F) :=
  Host.reduce FloatOps.minimumf (table a0 a1) (constant S_ .f32 0x7F800000#32) reducesTo_S4x8192x8192_S4x8192_d1 h_S_

end Cert.ReferenceIdeal.Tail

end
-- ==== Proof.RefValue.lean ====
/-
  The reference's two arrays of least distances are the specification's, index by index: a squared
  norm is the three-term sum of squares (the host sum's start is zero), the contraction over the
  coordinate axis is the three-term inner product, the two broadcasts place the norms along the
  rows and the columns of the table, and a host minimum over one axis from +∞ is the fold of `min`
  over that axis.
-/
import proofs.«149767_j65481071394839_1_alg».proof.Proof.Spec
import proofs.«149767_j65481071394839_1_alg».proof.Proof.RefDist
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.Tail

open Cert.ReferenceIdeal Cert.ReferenceIdeal.Gen Idealize.ShloMosaic Idealize.ShloMosaic.ValueIdx

/-! ## The one-axis reductions: the index over (b, n) with a coordinate put back on the dropped axis -/
private theorem red3 : S4x8192x3.Reduces [2] S4x8192 := by decide
private theorem redT2 : S4x8192x8192.Reduces [2] S4x8192 := by decide
private theorem redT1 : S4x8192x8192.Reduces [1] S4x8192 := by decide

private theorem lift3 (b : Fin 4) (n : Fin 8192) (k : Fin 3) :
    red3.lift (ix2 b n) k = ix3 b n k := by
  funext c; apply Fin.ext
  match c with
  | ⟨0, _⟩ => rfl
  | ⟨1, _⟩ => rfl
  | ⟨2, _⟩ => rfl

private theorem liftT2 (b : Fin 4) (n m : Fin 8192) :
    redT2.lift (ix2 b n) m = ix3 b n m := by
  funext c; apply Fin.ext
  match c with
  | ⟨0, _⟩ => rfl
  | ⟨1, _⟩ => rfl
  | ⟨2, _⟩ => rfl

private theorem liftT1 (b : Fin 4) (m n : Fin 8192) :
    redT1.lift (ix2 b m) n = ix3 b n m := by
  funext c; apply Fin.ext
  match c with
  | ⟨0, _⟩ => rfl
  | ⟨1, _⟩ => rfl
  | ⟨2, _⟩ => rfl

/-- The host sum of squares over the coordinate axis, from zero, is the squared norm. -/
private theorem sqnorm_apply (a : (⟨S4x8192x3, .f32⟩ : BufTy).Contents (Elt Ideal)) (b : Fin 4) (n : Fin 8192) :
    Host.reduceAdd (F := Ideal) (mulf a a) (constant S_ .f32 0x00000000#32) reducesTo_S4x8192x3_S4x8192_d2 h_S_ (ix2 b n)
      = Chamfer.sq a b n := by
  simp only [Host.reduceAdd, Ideal.hostReduceAdd_def]
  rw [Ideal.hostReduceAdd_single reducesTo_S4x8192x3_S4x8192_d2 red3]
  show Ideal.ofBits .f32 0x00000000#32 + _ = _
  rw [Ideal.ofBits_zero_f32, zero_add]
  exact Finset.sum_congr rfl fun k _ => congrArg (fun i => a i * a i) (lift3 b n k)

private abbrev D := dot_S4x8192x3_S4x8192x3_S4x8192x8192_2_2_1_1_0_0

/-- The left operand's index at table index (b, n, m) and contraction coordinate k is (b, n, k). -/
private theorem lhsIdx_ix3 (b : Fin 4) (n m : Fin 8192) (k : Fin 3) :
    D.lhsIdx (ix3 b n m) ((contrEquiv1 D 3 rfl rfl).symm k) = ix3 b n k := by
  funext c; apply Fin.ext
  match c with
  | ⟨0, _⟩ =>
    show (D.lhsIdx _ _ 0).val = b.val
    unfold DotDims.lhsIdx
    rw [dif_pos (show (0 : Fin S4x8192x3.rank) ∈ D.lhsBatch by decide)]
    rfl
  | ⟨1, _⟩ =>
    show (D.lhsIdx _ _ 1).val = n.val
    unfold DotDims.lhsIdx
    rw [dif_neg (show ¬ (1 : Fin S4x8192x3.rank) ∈ D.lhsBatch by decide),
      dif_pos (show (1 : Fin S4x8192x3.rank) ∈ D.lhsNonContracting by decide)]
    rfl
  | ⟨2, _⟩ =>
    exact (D.lhsIdx_val_of_single rfl _ _).trans (contrEquiv1_symm_val D 3 rfl rfl k)

/-- The right operand's index there is (b, m, k). -/
private theorem rhsIdx_ix3 (b : Fin 4) (n m : Fin 8192) (k : Fin 3) :
    D.rhsIdx (ix3 b n m) ((contrEquiv1 D 3 rfl rfl).symm k) = ix3 b m k := by
  funext c; apply Fin.ext
  match c with
  | ⟨0, _⟩ =>
    show (D.rhsIdx _ _ 0).val = b.val
    unfold DotDims.rhsIdx
    rw [dif_pos (show (0 : Fin S4x8192x3.rank) ∈ D.rhsBatch by decide)]
    rfl
  | ⟨1, _⟩ =>
    show (D.rhsIdx _ _ 1).val = m.val
    unfold DotDims.rhsIdx
    rw [dif_neg (show ¬ (1 : Fin S4x8192x3.rank) ∈ D.rhsBatch by decide),
      dif_pos (show (1 : Fin S4x8192x3.rank) ∈ D.rhsNonContracting by decide)]
    rfl
  | ⟨2, _⟩ =>
    exact (D.rhsIdx_val_of_single rfl _ _).trans (contrEquiv1_symm_val D 3 rfl rfl k)

/-- The contraction over the coordinate axis is the inner product. -/
private theorem dot_apply (a0 a1 : (⟨S4x8192x3, .f32⟩ : BufTy).Contents (Elt Ideal)) (b : Fin 4) (n m : Fin 8192) :
    Host.dotGeneral (F := Ideal) (φ₁ := .f32) (φ₂ := .f32) dot_S4x8192x3_S4x8192x3_S4x8192x8192_2_2_1_1_0_0 none a0 a1 (ix3 b n m)
      = Chamfer.inner a0 a1 b n m := by
  simp only [Host.dotGeneral]
  rw [Ideal.dotGeneral_apply, ← Equiv.sum_comp (contrEquiv1 D 3 rfl rfl).symm]
  unfold Chamfer.inner
  refine Finset.sum_congr rfl fun k _ => ?_
  rw [lhsIdx_ix3, rhsIdx_ix3]

/-- A value per (batch, point) broadcast along the table's rows: at (b, n, m) it is the value at (b, n). -/
private theorem rows_apply (y : S4x8192.Idx → EReal) (b : Fin 4) (n m : Fin 8192) :
    broadcastInDim S4x8192x8192 ![0, 1, 2] bcast_S4x8192x1_S4x8192x8192_0_1_2
        (broadcastInDim S4x8192x1 ![0, 1] bcast_S4x8192_S4x8192x1_0_1 y) (ix3 b n m) = y (ix2 b n) := by
  refine (broadcastInDim_apply _ _ _ _ (ix3 b n (0 : Fin 1)) fun a => ?_).trans
    (broadcastInDim_apply _ _ _ _ (ix2 b n) fun a => ?_)
  · match a with
    | ⟨0, _⟩ => rfl
    | ⟨1, _⟩ => rfl
    | ⟨2, _⟩ => rfl
  · match a with
    | ⟨0, _⟩ => rfl
    | ⟨1, _⟩ => rfl

/-- The same along the table's columns: at (b, n, m) it is the value at (b, m). -/
private theorem cols_apply (y : S4x8192.Idx → EReal) (b : Fin 4) (n m : Fin 8192) :
    broadcastInDim S4x8192x8192 ![0, 1, 2] bcast_S4x1x8192_S4x8192x8192_0_1_2
        (broadcastInDim S4x1x8192 ![0, 2] bcast_S4x8192_S4x1x8192_0_2 y) (ix3 b n m) = y (ix2 b m) := by
  refine (broadcastInDim_apply _ _ _ _ (ix3 b (0 : Fin 1) m) fun a => ?_).trans
    (broadcastInDim_apply _ _ _ _ (ix2 b m) fun a => ?_)
  · match a with
    | ⟨0, _⟩ => rfl
    | ⟨1, _⟩ => rfl
    | ⟨2, _⟩ => rfl
  · match a with
    | ⟨0, _⟩ => rfl
    | ⟨1, _⟩ => rfl

/-- The table at batch `b`, first-cloud point `n`, second-cloud point `m` is the clamped squared distance. -/
theorem table_apply (a0 a1 : (⟨S4x8192x3, .f32⟩ : BufTy).Contents (Elt Ideal)) (b : Fin 4) (n m : Fin 8192) :
    table (F := Ideal) a0 a1 (ix3 b n m) = Chamfer.d a0 a1 b n m := by
  have h1 := rows_apply (Host.reduceAdd (F := Ideal) (mulf a0 a0) (constant S_ .f32 0x00000000#32) reducesTo_S4x8192x3_S4x8192_d2 h_S_) b n m
  have h2 := cols_apply (Host.reduceAdd (F := Ideal) (mulf a1 a1) (constant S_ .f32 0x00000000#32) reducesTo_S4x8192x3_S4x8192_d2 h_S_) b n m
  rw [sqnorm_apply] at h1 h2
  have h3 := dot_apply a0 a1 b n m
  unfold table Chamfer.d
  exact congrArg₂ max (congrArg₂ (· - ·) (congrArg₂ (· + ·) h1 h2) (congrArg (Chamfer.two * ·) h3)) rfl

theorem refDist1_eq (a0 a1 : (⟨S4x8192x3, .f32⟩ : BufTy).Contents (Elt Ideal)) :
    refDist1 (F := Ideal) a0 a1 = Chamfer.dist1 a0 a1 := by
  funext i
  obtain ⟨b, n, rfl⟩ : ∃ (b : Fin 4) (n : Fin 8192), i = ix2 b n := ⟨i 0, i 1, eq_ix2 i⟩
  unfold refDist1
  rw [Host.reduce_eq_fold_single FloatOps.minimumf (table a0 a1) _ reducesTo_S4x8192x8192_S4x8192_d2 redT2 h_S_]
  have hf : (table (F := Ideal) a0 a1 ∘ redT2.lift (ix2 b n)) = fun m : Fin 8192 => Chamfer.d a0 a1 b n m :=
    funext fun m => (congrArg (table a0 a1) (liftT2 b n m)).trans (table_apply a0 a1 b n m)
  exact congrArg (fun f => Finset.fold min Chamfer.top f (Finset.univ : Finset (Fin 8192))) hf

theorem refDist2_eq (a0 a1 : (⟨S4x8192x3, .f32⟩ : BufTy).Contents (Elt Ideal)) :
    refDist2 (F := Ideal) a0 a1 = Chamfer.dist2 a0 a1 := by
  funext i
  obtain ⟨b, m, rfl⟩ : ∃ (b : Fin 4) (m : Fin 8192), i = ix2 b m := ⟨i 0, i 1, eq_ix2 i⟩
  unfold refDist2
  rw [Host.reduce_eq_fold_single FloatOps.minimumf (table a0 a1) _ reducesTo_S4x8192x8192_S4x8192_d1 redT1 h_S_]
  have hf : (table (F := Ideal) a0 a1 ∘ redT1.lift (ix2 b m)) = fun n : Fin 8192 => Chamfer.d a0 a1 b n m :=
    funext fun n => (congrArg (table a0 a1) (liftT1 b m n)).trans (table_apply a0 a1 b n m)
  exact congrArg (fun f => Finset.fold min Chamfer.top f (Finset.univ : Finset (Fin 8192))) hf

end Cert.ReferenceIdeal.Tail

end
-- ==== Proof.RefSide.lean ====
/-
  The reference's run, restated: its three results are the shared host tail applied to the
  specification's two arrays of least distances of the argument arrays, and the arguments end
  unchanged. The composed term the run ends at is the tail applied to the reference's own two
  arrays (the same operations, named), and those are the specification's.
-/
import proofs.«149767_j65481071394839_1_alg».proof.Proof.RefRun
import proofs.«149767_j65481071394839_1_alg».proof.Proof.RefTail
import proofs.«149767_j65481071394839_1_alg».proof.Proof.RefValue

noncomputable section

namespace Cert.ReferenceIdeal.Tail

open Cert.ReferenceIdeal Cert.ReferenceIdeal.Gen Idealize.ShloMosaic Idealize.ShloMosaic.TcCoe Idealize.SL.Sem Idealize.ShloMosaic.StableHlo

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27)
          = meanRoot (F := Ideal) (Chamfer.dist1 (m ((c.tc : Thread nD τ).loc main_arg0)) (m ((c.tc : Thread nD τ).loc main_arg1)))
              (Chamfer.dist2 (m ((c.tc : Thread nD τ).loc main_arg0)) (m ((c.tc : Thread nD τ).loc main_arg1)))
      ∧ r.2.mem ((c.tc : Thread nD τ).loc main_v34)
          = meanSum (F := Ideal) (Chamfer.dist1 (m ((c.tc : Thread nD τ).loc main_arg0)) (m ((c.tc : Thread nD τ).loc main_arg1)))
              (Chamfer.dist2 (m ((c.tc : Thread nD τ).loc main_arg0)) (m ((c.tc : Thread nD τ).loc main_arg1)))
      ∧ r.2.mem ((c.tc : Thread nD τ).loc main_v57)
          = score (F := Ideal) (Chamfer.dist1 (m ((c.tc : Thread nD τ).loc main_arg0)) (m ((c.tc : Thread nD τ).loc main_arg1)))
              (Chamfer.dist2 (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2.1.trans ?_, (h c).2.2.1.trans ?_, (h c).2.2.2.1, (h c).2.2.2.2⟩) (RunP.run (F := Ideal) m ρ)
  · rw [← refDist1_eq, ← refDist2_eq]
    unfold meanRoot refDist1 refDist2 table
    rfl
  · rw [← refDist1_eq, ← refDist2_eq]
    unfold meanSum refDist1 refDist2 table
    rfl
  · rw [← refDist1_eq, ← refDist2_eq]
    unfold RunP.res_main_v57 score refDist1 refDist2 table
    rfl

end Cert.ReferenceIdeal.Tail

end
-- ==== Proof.lean ====
/-
  Three programs: a tiled kernel for the Chamfer statistics of two batches of point clouds, the same
  program read over the extended reals, and a plain reference.

  For every point of one cloud the least clamped squared distance to the other cloud is wanted, in
  both directions; from the two arrays of least distances three batch statistics are then taken by
  the same host operations in every program. The reference forms the whole 8192 × 8192 table of
  distances of a batch and takes its minimum along each axis. The kernel sweeps the table in 8 × 8
  tiles of 1024 × 1024: at each step it computes one tile from two blocks of points, takes the tile's
  minimum along each axis, and folds it into one slice of each of two result buffers that stay in
  place for the whole batch (filled with +∞ at the batch's first step, written back after its last).
  A minimum over a whole row of the table is the minimum of the row's eight tile minima, whatever the
  order — `min` on the extended reals being a meet — so after the last step of a batch each buffer
  holds the reference's array. No finiteness is used: the two sides apply the same arithmetic to the
  same entries and differ only in how a minimum is grouped.

  The frames: the kernel region is followed by sixty-seven host operations, none of which writes an
  array the region's windows stage; the body's run at each step leaves each result buffer at contents
  named by recursion on the step. The reference has no kernel: its frame is its run.
-/
import proofs.«149767_j65481071394839_1_alg».proof.Defs
import proofs.«149767_j65481071394839_1_alg».proof.Proof.Gen.Kernel
import proofs.«149767_j65481071394839_1_alg».proof.Proof.Gen.KernelIdeal
import proofs.«149767_j65481071394839_1_alg».proof.Proof.Gen.ReferenceIdeal
import proofs.«149767_j65481071394839_1_alg».proof.Proof.Gen.Pre_finite_inputs
import proofs.«149767_j65481071394839_1_alg».proof.Proof.FrameK.Frame
import proofs.«149767_j65481071394839_1_alg».proof.Proof.KRun
import proofs.«149767_j65481071394839_1_alg».proof.Proof.RefSide
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Fr.frame m ρ

/-- So does the program read over the extended reals. -/
theorem frame_ki : Cert.frame_KernelIdeal := fun m ρ _ => Cert.KernelIdeal.Fr.frame m ρ

/-- The reference's frame is its run with the results dropped. -/
theorem frame_ri : Cert.frame_ReferenceIdeal := fun m ρ _ =>
  (θ_run Cert.ReferenceIdeal.defs _ _).mono (fun _ h c => ⟨(h c).2.2.2.1, (h c).2.2.2.2⟩)
    (Cert.ReferenceIdeal.Tail.ref_run m ρ)

/-- The idealization rewrote nothing. -/
theorem preserves : Cert.preserves_Kernel_KernelIdeal := trivial

/-- Both runs end at the shared host tail of the specification's two arrays of least distances. -/
theorem algebraic : Cert.algebraic_KernelIdeal_ReferenceIdeal := by
  intro m ρ m' ρ' _ hagree
  refine ⟨_, _, _, Cert.KernelIdeal.KV.kernel_run m ρ, ?_⟩
  refine (θ_run Cert.ReferenceIdeal.defs _ _).mono (fun _ h c => ?_) (Cert.ReferenceIdeal.Tail.ref_run m' ρ')
  obtain ⟨h1, h2, h3, h4, h5⟩ := h c
  rw [(hagree c).1, (hagree c).2] at h1 h2 h3
  exact ⟨h1, h2, h3, h4, h5⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
